-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S1600000 : Shape := ⟨1, ![1600000]⟩
abbrev S100000 : Shape := ⟨1, ![100000]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg10 : FVec F S64x64 .f32) (main_arg11 : FVec F S64 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg7 : FVec F S32 .f32) (main_arg8 : FVec F S32x64 .f32) (main_arg9 : FVec F S64 .f32) (main_arg10 : FVec F S64x64 .f32) (main_arg11 : FVec F S64 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg8
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S100000x6 .f32) (main_arg1 : IVec S1600000 32) (main_arg2 : IVec S1600000 32) (main_arg3 : IVec S100000 32) (main_arg4 : FVec F S6x16 .f32) (main_arg5 : FVec F S16 .f32) (main_arg6 : FVec F S16x32 .f32) (main_arg7 : FVec F S32 .f32) (main_arg8 : FVec F S32x64 .f32) (main_arg9 : FVec F S64 .f32) (main_arg10 : FVec F S64x64 .f32) (main_arg11 : FVec F S64 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x16 .f32 := Host.absf main_arg4
  let main_cst_0 : FVec F S_ .f32 := constant S_ .f32 0x7F800000#32
  let main_v5 : FVec F S6x16 .f32 := broadcastInDim S6x16 ![] bcast_S_S6x16 main_cst_0
  let main_v6 : IVec S6x16 1 := cmpf .olt main_v4 main_v5
  let main_c_1 : IVec S_ 1 := constantI S_ 1 1#1
  let main_v7 : IVec S_ 1 := (fun x v => Host.reduce IntOp.andi x v reducesTo_S6x16_S_d0_1 h_S_) main_v6 main_c_1
  let main_v8 : IVec S_ 1 := andi main_v3 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg6
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg7 main_arg8 main_arg9 main_arg10 main_arg11 main_v13 main_v16
-- ==== Kernel.lean ====
abbrev S100000x6 : Shape := ⟨2, ![100000, 6]⟩
abbrev S1600000 : Shape := ⟨1, ![1600000]⟩
abbrev S100000 : Shape := ⟨1, ![100000]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x6 : Shape := ⟨2, ![1600000, 6]⟩
abbrev S100000x1 : Shape := ⟨2, ![100000, 1]⟩
abbrev S1x16 : Shape := ⟨2, ![1, 16]⟩
abbrev S100000x16 : Shape := ⟨2, ![100000, 16]⟩
abbrev S5000x6 : Shape := ⟨2, ![5000, 6]⟩
abbrev S5000x16 : Shape := ⟨2, ![5000, 16]⟩
abbrev S1600000x16 : Shape := ⟨2, ![1600000, 16]⟩
abbrev S1x32 : Shape := ⟨2, ![1, 32]⟩
abbrev S100000x32 : Shape := ⟨2, ![100000, 32]⟩
abbrev S5000x32 : Shape := ⟨2, ![5000, 32]⟩
abbrev S1600000x32 : Shape := ⟨2, ![1600000, 32]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S64x1 : Shape := ⟨2, ![64, 1]⟩

abbrev nBuf : Space → Nat
  | .hbm => 116
  | .vmem => 24
  | .smem => 0
  | _ => 0

abbrev bufTy : (tb : Table) → Fin (tcTables nBuf tb) → BufTy
  | .hbm, ⟨0, _⟩ => ⟨S100000x6, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S6x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x6, .f32⟩
  | .hbm, ⟨33, _⟩ => ⟨S_, .f32⟩
  | .hbm, ⟨34, _⟩ => ⟨S100000x6, .f32⟩
  | .hbm, ⟨35, _⟩ => ⟨S1600000x1, .i32⟩
  | .hbm, ⟨36, _⟩ => ⟨S100000x6, .f32⟩
  | .hbm, ⟨37, _⟩ => ⟨S100000x6, .f32⟩
  | .hbm, ⟨38, _⟩ => ⟨S100000x1, .f32⟩
  | .hbm, ⟨39, _⟩ => ⟨S100000x6, .f32⟩
  | .hbm, ⟨40, _⟩ => ⟨S100000x6, .f32⟩
  | .hbm, ⟨41, _⟩ => ⟨S1x16, .f32⟩
  | .hbm, ⟨42, _⟩ => ⟨S100000x16, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x16, .f32⟩
  | .hbm, ⟨52, _⟩ => ⟨S_, .f32⟩
  | .hbm, ⟨53, _⟩ => ⟨S100000x16, .f32⟩
  | .hbm, ⟨54, _⟩ => ⟨S1600000x1, .i32⟩
  | .hbm, ⟨55, _⟩ => ⟨S100000x16, .f32⟩
  | .hbm, ⟨56, _⟩ => ⟨S100000x16, .f32⟩
  | .hbm, ⟨57, _⟩ => ⟨S100000x1, .f32⟩
  | .hbm, ⟨58, _⟩ => ⟨S100000x16, .f32⟩
  | .hbm, ⟨59, _⟩ => ⟨S100000x16, .f32⟩
  | .hbm, ⟨60, _⟩ => ⟨S1x32, .f32⟩
  | .hbm, ⟨61, _⟩ => ⟨S100000x32, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x32, .f32⟩
  | .hbm, ⟨71, _⟩ => ⟨S_, .f32⟩
  | .hbm, ⟨72, _⟩ => ⟨S100000x32, .f32⟩
  | .hbm, ⟨73, _⟩ => ⟨S1600000x1, .i32⟩
  | .hbm, ⟨74, _⟩ => ⟨S100000x32, .f32⟩
  | .hbm, ⟨75, _⟩ => ⟨S100000x32, .f32⟩
  | .hbm, ⟨76, _⟩ => ⟨S100000x1, .f32⟩
  | .hbm, ⟨77, _⟩ => ⟨S100000x32, .f32⟩
  | .hbm, ⟨78, _⟩ => ⟨S100000x32, .f32⟩
  | .hbm, ⟨79, _⟩ => ⟨S1x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S100000x64, .f32⟩
  | .hbm, ⟨95, _⟩ => ⟨S100000x1, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S_, .f32⟩
  | .hbm, ⟨101, _⟩ => ⟨S64x64, .f32⟩
  | .hbm, ⟨102, _⟩ => ⟨S100000x1, .i32⟩
  | .hbm, ⟨103, _⟩ => ⟨S64x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S64, .f32⟩
  | .hbm, ⟨108, _⟩ => ⟨S100000x1, .i32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64x1, .f32⟩
  | .hbm, ⟨114, _⟩ => ⟨S64x64, .f32⟩
  | .hbm, ⟨115, _⟩ => ⟨S64x64, .f32⟩
  | .local _ .vmem, ⟨0, _⟩ => ⟨S5000x6, .f32⟩
  | .local _ .vmem, ⟨1, _⟩ => ⟨S5000x6, .f32⟩
  | .local _ .vmem, ⟨2, _⟩ => ⟨S6x16, .f32⟩
  | .local _ .vmem, ⟨3, _⟩ => ⟨S1x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S16x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  shapeCasts_S16_S1x16 : S16.ShapeCasts S1x16
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S32_S1x32 : S32.ShapeCasts S1x32
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S5000x6_S6x16_S5000x16_1_0_0_1_n_n_wf : DotDims.WF S5000x6 S6x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x16.size a ≤ S6x16.size a
  hwx0_1 : ∀ i : grid0.Coords, EltTy.bits .f32 = 32 ∨ (Rect.block (s := S6x16) S6x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S5000x6_S6x16_S5000x16_1_0_0_1_n_n : DotDims S5000x6 S6x16 S5000x16 where
  lhsContracting := [1]
  rhsContracting := [0]
  lhsNonContracting := [0]
  rhsNonContracting := [1]
  lhsBatch := []
  rhsBatch := []
  wf := dot_S5000x6_S6x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v21) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v69) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x6 : Shape := ⟨2, ![100000, 6]⟩
abbrev S1600000 : Shape := ⟨1, ![1600000]⟩
abbrev S100000 : Shape := ⟨1, ![100000]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x6 : Shape := ⟨2, ![1600000, 6]⟩
abbrev S100000x1 : Shape := ⟨2, ![100000, 1]⟩
abbrev S100000x16 : Shape := ⟨2, ![100000, 16]⟩
abbrev S1x16 : Shape := ⟨2, ![1, 16]⟩
abbrev S1600000x16 : Shape := ⟨2, ![1600000, 16]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S100000x6, .f32⟩
  | 1 => ⟨S1600000, .i32⟩
  | 2 => ⟨S1600000, .i32⟩
  | 3 => ⟨S100000, .i32⟩
  | 4 => ⟨S6x16, .f32⟩
  | 5 => ⟨S16, .f32⟩
  | 6 => ⟨S16x32, .f32⟩
  | 7 => ⟨S32, .f32⟩
  | 8 => ⟨S32x64, .f32⟩
  | 9 => ⟨S64, .f32⟩
  | 10 => ⟨S64x64, .f32⟩
  | 11 => ⟨S64, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x6, .f32⟩
  | 27 => ⟨S_, .f32⟩
  | 28 => ⟨S100000x6, .f32⟩
  | 29 => ⟨S1600000x1, .i32⟩
  | 30 => ⟨S100000x6, .f32⟩
  | 31 => ⟨S100000x6, .f32⟩
  | 32 => ⟨S100000x1, .f32⟩
  | 33 => ⟨S_, .f32⟩
  | 34 => ⟨S100000x1, .f32⟩
  | 35 => ⟨S100000x1, .f32⟩
  | 36 => ⟨S100000x6, .f32⟩
  | 37 => ⟨S100000x6, .f32⟩
  | 38 => ⟨S100000x16, .f32⟩
  | 39 => ⟨S1x16, .f32⟩
  | 40 => ⟨S100000x16, .f32⟩
  | 41 => ⟨S100000x16, .f32⟩
  | 42 => ⟨S_, .f32⟩
  | 43 => ⟨S100000x16, .f32⟩
  | 44 => ⟨S100000x16, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x16, .f32⟩
  | 54 => ⟨S_, .f32⟩
  | 55 => ⟨S100000x16, .f32⟩
  | 56 => ⟨S1600000x1, .i32⟩
  | 57 => ⟨S100000x16, .f32⟩
  | 58 => ⟨S100000x16, .f32⟩
  | 59 => ⟨S100000x1, .f32⟩
  | 60 => ⟨S_, .f32⟩
  | 61 => ⟨S100000x1, .f32⟩
  | 62 => ⟨S100000x1, .f32⟩
  | 63 => ⟨S100000x16, .f32⟩
  | 64 => ⟨S100000x16, .f32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x32, .f32⟩
  | 81 => ⟨S_, .f32⟩
  | 82 => ⟨S100000x32, .f32⟩
  | 83 => ⟨S1600000x1, .i32⟩
  | 84 => ⟨S100000x32, .f32⟩
  | 85 => ⟨S100000x32, .f32⟩
  | 86 => ⟨S100000x1, .f32⟩
  | 87 => ⟨S_, .f32⟩
  | 88 => ⟨S100000x1, .f32⟩
  | 89 => ⟨S100000x1, .f32⟩
  | 90 => ⟨S100000x32, .f32⟩
  | 91 => ⟨S100000x32, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x64, .f32⟩
  | 113 => ⟨S100000x1, .f32⟩
  | 114 => ⟨S_, .f32⟩
  | 115 => ⟨S100000x1, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S64x64, .f32⟩
  | _ => ⟨S100000x6, .f32⟩

abbrev hbmTy0_1 (i : Nat) : BufTy := match i % 128 with
  | 0 => ⟨S100000x1, .i32⟩
  | 1 => ⟨S64x64, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x64, .f32⟩
  | 13 => ⟨S64x64, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_cst : Ref sig .tc := ⟨.hbm, 69, rfl⟩
abbrev main_call1_v0 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call3_cst : Ref sig .tc := ⟨.hbm, 123, rfl⟩
abbrev main_call3_v0 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x6_0_1 : S100000x1.BroadcastsInDim S100000x6 (![0, 1] : Fin 2 → Fin S100000x6.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S100000x6_S6x16_S100000x16_1_0_0_1_n_n_wf : DotDims.WF S100000x6 S6x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S100000x6_S6x16_S100000x16_1_0_0_1_n_n : DotDims S100000x6 S6x16 S100000x16 where
  lhsContracting := [1]
  rhsContracting := [0]
  lhsNonContracting := [0]
  rhsNonContracting := [1]
  lhsBatch := []
  rhsBatch := []
  wf := dot_S100000x6_S6x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The mathematics shared by the two programs, stated over the extended reals and free of either program's text.

  * `linRelu M K N x W b`: the M × N array whose entry (i, j) is max(∑ q, x(i, q) · W(q, j) + b(0, j), 0): a matrix
    product, a bias row added to every row, and the positive part.
  * The reciprocal law: for d ≠ 0 the product s · (1 / d) is the quotient s / d, at every extended real s. (At d = 0
    the two differ, which is why the divisor's nonvanishing has to be known.)
  * Three readings at an entry that hold by unfolding: the host's quotient, a repeated scalar constant, the host's
    scatter-add as the exact sum.
  * A scatter-add of nonnegative updates into a nonnegative array is nonnegative at every entry; in particular an
    array of counts (ones added into zeros) is, and a count plus one is not zero.
-/
import Idealize.ShloMosaic.PureOps.Ideal.Laws
import Idealize.ShloMosaic.Lib.ValueIdx

noncomputable section

open scoped BigOperators

namespace Cert.Spec

open Idealize.ShloMosaic Idealize.ShloMosaic.ValueIdx

/-- Entry (i, j) of max(x · W + b, 0), the bias `b` a 1 × N row added to every row of the product. -/
def linRelu (M K N : Nat) (x : FVec Ideal ⟨2, ![M, K]⟩ .f32) (W : FVec Ideal ⟨2, ![K, N]⟩ .f32)
    (b : FVec Ideal ⟨2, ![1, N]⟩ .f32) : FVec Ideal ⟨2, ![M, N]⟩ .f32 :=
  fun e => max ((∑ q : Fin K, x (ix2 (n0 := M) ⟨(e 0).val, (e 0).isLt⟩ q) * W (ix2 q (n1 := N) ⟨(e 1).val, (e 1).isLt⟩))
    + b (ix2 (n0 := 1) ⟨0, Nat.one_pos⟩ (n1 := N) ⟨(e 1).val, (e 1).isLt⟩)) 0

theorem linRelu_apply (M K N : Nat) (x : FVec Ideal ⟨2, ![M, K]⟩ .f32) (W : FVec Ideal ⟨2, ![K, N]⟩ .f32)
    (b : FVec Ideal ⟨2, ![1, N]⟩ .f32) (i : Fin M) (j : Fin N) :
    linRelu M K N x W b (ix2 i j)
      = max ((∑ q : Fin K, x (ix2 i q) * W (ix2 q j)) + b (ix2 (n0 := 1) ⟨0, Nat.one_pos⟩ j)) 0 := rfl

/-- For a divisor other than zero, multiplying by the reciprocal is dividing: both are s · d⁻¹. -/
theorem mul_recip (s d : EReal) (hd : d ≠ 0) : s * Ideal.div 1 d = Ideal.div s d := by
  unfold Ideal.div
  rw [if_neg hd, if_neg hd, one_mul]

/-- The single-precision pattern of one denotes the real number one. -/
theorem one_f32 : Ideal.ofBits .f32 0x3F800000#32 = 1 := by
  simp [Ideal.ofBits, Ideal.ieee, -EReal.coe_mul]; norm_num

/-- The host's quotient at an entry is the quotient of the entries. -/
theorem hostDivf_apply {s : Shape} {φ : FTy} (a b : FVec Ideal s φ) (i : s.Idx) :
    Host.divf a b i = Ideal.div (a i) (b i) := rfl

/-- A scalar constant repeated over an array is, at every entry, the constant's value (whatever its pattern). -/
theorem splat_apply {t : Shape} (h : (⟨0, ![]⟩ : Shape).BroadcastsInDim t (![] : Fin 0 → Fin t.rank)) (w : BitVec 32)
    (i : t.Idx) : broadcastInDim t ![] h (constant (F := Ideal) ⟨0, ![]⟩ .f32 w) i = Ideal.ofBits .f32 w := rfl

/-- The host's scatter-add over the extended reals is the exact sum of the updates that land on each entry. -/
theorem scatterAdd_eq {s si su : Shape} (d : ScatterDims s si su) {w : Nat} (x : FVec Ideal s .f32) (idx : IVec si w)
    (upd : FVec Ideal su .f32) : Host.scatterAdd d x idx upd = Ideal.hostScatterAdd d x idx upd := rfl

/-- A scatter-add leaves every entry nonnegative when the array it adds into and the updates are. -/
theorem scatterAdd_nonneg {s si su : Shape} (d : ScatterDims s si su) {w : Nat} (x : s.Idx → EReal) (idx : IVec si w)
    (upd : su.Idx → EReal) (hx : ∀ i, 0 ≤ x i) (hu : ∀ j, 0 ≤ upd j) (i : s.Idx) :
    0 ≤ Ideal.hostScatterAdd d x idx upd i :=
  add_nonneg (hx i) (Finset.sum_nonneg fun j _ => hu j)

/-- A nonnegative extended real plus one is not zero. -/
theorem add_one_ne_zero {d : EReal} (h : 0 ≤ d) : d + 1 ≠ 0 :=
  (lt_of_lt_of_le zero_lt_one (le_add_of_nonneg_left h)).ne'

end Cert.Spec
-- ==== Proof.KChain.lean ====
/-
  The kernel program's value as a composition of named pure functions over the extended reals.

  Every node v of the graph has a count deg(v) of incoming edges (ones scatter-added at the edges' destinations) and
  the weight inv(v) = 1 / (deg(v) + 1). One layer sends node features h (an n × d array, n = 100000) to

      scaled(h)(v, ·) = (∑ over edges (u → v) of h(u, ·) + h(v, ·)) · inv(v),

  the sum over edges being a gather of the source rows scatter-added at the destination rows (`agg`), and then to
  max(scaled(h) · W + b, 0) (Spec.linRelu), the bias vector b laid out as a 1 × d' row. Four layers with widths
  6 → 16 → 32 → 64 → 64 follow each other, and the result is, per graph, the sum of the last layer's rows over the
  graph's nodes divided by max(number of the graph's nodes, 1). The gathers read the source index with a negative
  index wrapped around by the number of nodes, as the programs do. `agg`, `scaled` and `layer` are stated once for
  every width, the width's gather and scatter dimension numbers and broadcast facts being parameters.
-/
import proofs.«146016_j24404004176133_1_alg».proof.KernelIdeal
import proofs.«146016_j24404004176133_1_alg».proof.Proof.Gen.KernelIdeal
import proofs.«146016_j24404004176133_1_alg».proof.Proof.Spec

noncomputable section

namespace Cert.KChain

open Cert.KernelIdeal Cert.KernelIdeal.Facts₀ Cert.KernelIdeal.Facts Idealize.ShloMosaic

/-- The n × d arrays of node features and the e × d arrays of edge features (e = 1600000 edges). -/
abbrev Nodes (d : Nat) : Shape := ⟨2, ![100000, d]⟩
abbrev Edges (d : Nat) : Shape := ⟨2, ![1600000, d]⟩

/-- The source index of every edge as a column, a negative index wrapped around by the number of nodes. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The destination index of every edge as a column. -/
def dstIdx (dst : IVec S1600000 32) : IVec S1600000x1 32 :=
  broadcastInDim S1600000x1 ![0] bcast_S1600000_S1600000x1_0 dst

/-- deg(v): the number of edges whose destination is v, as ones added into zeros. -/
def deg (dst : IVec S1600000 32) : FVec Ideal S100000 .f32 :=
  Host.scatterAdd scatter_S100000_S1600000x1_S1600000_n_0_0_1
    (broadcastInDim S100000 ![] bcast_S_S100000 (constant S_ .f32 0x00000000#32)) (dstIdx dst)
    (broadcastInDim S1600000 ![] bcast_S_S1600000 (constant S_ .f32 0x3F800000#32))

/-- inv(v) = 1 / (deg(v) + 1). -/
def inv (dst : IVec S1600000 32) : FVec Ideal S100000 .f32 :=
  Host.divf (broadcastInDim S100000 ![] bcast_S_S100000 (constant S_ .f32 0x3F800000#32))
    (addf (deg dst) (broadcastInDim S100000 ![] bcast_S_S100000 (constant S_ .f32 0x3F800000#32)))

section Width

variable {d : Nat} (sc : ScatterDims (Nodes d) S1600000x1 (Edges d)) (ga : GatherDims (Nodes d) S1600000x1 (Edges d))
  (hz : S_.BroadcastsInDim (Nodes d) (![] : Fin 0 → Fin (Nodes d).rank))
  (hb : S100000x1.BroadcastsInDim (Nodes d) (![0, 1] : Fin 2 → Fin (Nodes d).rank))

/-- Every node's row plus the rows of the sources of its incoming edges. -/
def agg (h : FVec Ideal (Nodes d) .f32) (src dst : IVec S1600000 32) : FVec Ideal (Nodes d) .f32 :=
  addf (Host.scatterAdd sc (broadcastInDim (Nodes d) ![] hz (constant S_ .f32 0x00000000#32)) (dstIdx dst)
    (Host.gather ga h (srcIdx src))) h

/-- The aggregated rows, each multiplied by its node's weight inv(v). -/
def scaled (h : FVec Ideal (Nodes d) .f32) (src dst : IVec S1600000 32) : FVec Ideal (Nodes d) .f32 :=
  mulf (agg sc ga hz h src dst)
    (broadcastInDim (Nodes d) ![0, 1] hb (broadcastInDim S100000x1 ![0] bcast_S100000_S100000x1_0 (inv dst)))

end Width

/-- A bias vector of length n as a 1 × n row. -/
def row {n : Nat} (hc : (⟨1, ![n]⟩ : Shape).ShapeCasts ⟨2, ![1, n]⟩) (b : FVec Ideal ⟨1, ![n]⟩ .f32) :
    FVec Ideal ⟨2, ![1, n]⟩ .f32 :=
  shapeCast ⟨2, ![1, n]⟩ b hc

/-- The four widths' aggregated and weighted rows. -/
def scaled6 (h : FVec Ideal S100000x6 .f32) (src dst : IVec S1600000 32) : FVec Ideal S100000x6 .f32 :=
  scaled scatter_S100000x6_S1600000x1_S1600000x6_1_0_0_1 gather_S100000x6_S1600000x1_S1600000x6_1_0_n_n_0_1_16
    bcast_S_S100000x6 bcast_S100000x1_S100000x6_0_1 h src dst
def scaled16 (h : FVec Ideal S100000x16 .f32) (src dst : IVec S1600000 32) : FVec Ideal S100000x16 .f32 :=
  scaled scatter_S100000x16_S1600000x1_S1600000x16_1_0_0_1 gather_S100000x16_S1600000x1_S1600000x16_1_0_n_n_0_1_116
    bcast_S_S100000x16 bcast_S100000x1_S100000x16_0_1 h src dst
def scaled32 (h : FVec Ideal S100000x32 .f32) (src dst : IVec S1600000 32) : FVec Ideal S100000x32 .f32 :=
  scaled scatter_S100000x32_S1600000x1_S1600000x32_1_0_0_1 gather_S100000x32_S1600000x1_S1600000x32_1_0_n_n_0_1_132
    bcast_S_S100000x32 bcast_S100000x1_S100000x32_0_1 h src dst
def scaled64 (h : FVec Ideal S100000x64 .f32) (src dst : IVec S1600000 32) : FVec Ideal S100000x64 .f32 :=
  scaled scatter_S100000x64_S1600000x1_S1600000x64_1_0_0_1 gather_S100000x64_S1600000x1_S1600000x64_1_0_n_n_0_1_164
    bcast_S_S100000x64 bcast_S100000x1_S100000x64_0_1 h src dst

/-- The three lengths' bias rows. -/
def row16 (b : FVec Ideal S16 .f32) : FVec Ideal S1x16 .f32 := row shapeCasts_S16_S1x16 b
def row32 (b : FVec Ideal S32 .f32) : FVec Ideal S1x32 .f32 := row shapeCasts_S32_S1x32 b
def row64 (b : FVec Ideal S64 .f32) : FVec Ideal S1x64 .f32 := row shapeCasts_S64_S1x64 b

/-- The first layer's output (width 16) from the input features. -/
def h1 (feat : FVec Ideal S100000x6 .f32) (src dst : IVec S1600000 32) (W1 : FVec Ideal S6x16 .f32) (b1 : FVec Ideal S16 .f32) :
    FVec Ideal S100000x16 .f32 :=
  Cert.Spec.linRelu 100000 6 16 (scaled6 feat src dst) W1 (row16 b1)

/-- One more layer: width 16 to 32. -/
def h2 (h : FVec Ideal S100000x16 .f32) (src dst : IVec S1600000 32) (W2 : FVec Ideal S16x32 .f32) (b2 : FVec Ideal S32 .f32) :
    FVec Ideal S100000x32 .f32 :=
  Cert.Spec.linRelu 100000 16 32 (scaled16 h src dst) W2 (row32 b2)

/-- One more layer: width 32 to 64. -/
def h3 (h : FVec Ideal S100000x32 .f32) (src dst : IVec S1600000 32) (W3 : FVec Ideal S32x64 .f32) (b3 : FVec Ideal S64 .f32) :
    FVec Ideal S100000x64 .f32 :=
  Cert.Spec.linRelu 100000 32 64 (scaled32 h src dst) W3 (row64 b3)

/-- The last layer: width 64 to 64. -/
def h4 (h : FVec Ideal S100000x64 .f32) (src dst : IVec S1600000 32) (W4 : FVec Ideal S64x64 .f32) (b4 : FVec Ideal S64 .f32) :
    FVec Ideal S100000x64 .f32 :=
  Cert.Spec.linRelu 100000 64 64 (scaled64 h src dst) W4 (row64 b4)

/-- Per graph: the sum of the nodes' rows divided by max(number of the graph's nodes, 1). -/
def graphMean (h : FVec Ideal S100000x64 .f32) (gid : IVec S100000 32) : FVec Ideal S64x64 .f32 :=
  Host.divf
    (Host.scatterAdd scatter_S64x64_S100000x1_S100000x64_1_0_0_1
      (broadcastInDim S64x64 ![] bcast_S_S64x64 (constant S_ .f32 0x00000000#32))
      (broadcastInDim S100000x1 ![0] bcast_S100000_S100000x1_0 gid) h)
    (broadcastInDim S64x64 ![0, 1] bcast_S64x1_S64x64_0_1
      (broadcastInDim S64x1 ![0] bcast_S64_S64x1_0
        (maximumf
          (Host.scatterAdd scatter_S64_S100000x1_S100000_n_0_0_1
            (broadcastInDim S64 ![] bcast_S_S64 (constant S_ .f32 0x00000000#32))
            (broadcastInDim S100000x1 ![0] bcast_S100000_S100000x1_0 gid)
            (broadcastInDim S100000 ![] bcast_S_S100000 (constant S_ .f32 0x3F800000#32)))
          (broadcastInDim S64 ![] bcast_S_S64 (constant S_ .f32 0x3F800000#32)))))

/-- The whole program: four layers, then the per-graph mean. -/
def result (feat : FVec Ideal S100000x6 .f32) (src dst : IVec S1600000 32) (gid : IVec S100000 32)
    (W1 : FVec Ideal S6x16 .f32) (b1 : FVec Ideal S16 .f32) (W2 : FVec Ideal S16x32 .f32) (b2 : FVec Ideal S32 .f32)
    (W3 : FVec Ideal S32x64 .f32) (b3 : FVec Ideal S64 .f32) (W4 : FVec Ideal S64x64 .f32) (b4 : FVec Ideal S64 .f32) :
    FVec Ideal S64x64 .f32 :=
  graphMean (h4 (h3 (h2 (h1 feat src dst W1 b1) src dst W2 b2) src dst W3 b3) src dst W4 b4) gid

end Cert.KChain
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.RegionValue0.lean ====
/-
  Region 0 (the first layer's linear map and positive part): what its output array holds after the region has run.

  The grid has 20 points; point t stages rows 5000·t … 5000·t + 4999 of the input array (all 6 columns), the whole
  6 × 16 weight array and the whole 1 × 16 bias row, and writes back rows 5000·t … 5000·t + 4999 of the output array
  (all 16 columns). The body computes, for its block, max(x · W + b, 0): entry (p, q) of the block is
  max(∑ r, x(p, r) · W(r, q) + b(0, q), 0) — the product accumulated into zeros, the two roundings to the shorter
  float format being the identity on the extended reals. Row 5000·t + p of the array is row p of block t, the 20
  row blocks tile the 100000 rows, and so the array ends as Spec.linRelu of the three arrays the region found.
-/
import proofs.«146016_j24404004176133_1_alg».proof.Proof.Gen.KernelIdeal.Frame
import proofs.«146016_j24404004176133_1_alg».proof.Proof.Spec
import proofs.«146016_j24404004176133_1_alg».proof.Proof.LibDotPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at entry (p, q) of the block: max(∑ r, x(p, r) · W(r, q) + b(0, q), 0). -/
theorem pay_apply (v0 : Vec Ideal S5000x6 .f32) (v3 : Vec Ideal S6x16 .f32) (v6 : Vec Ideal S1x16 .f32)
    (p : Fin 5000) (q : Fin 16) :
    k0_pay1 (F := Ideal) v0 v3 v6 (ix2 p q)
      = max ((∑ r : Fin 6, v0 (ix2 p r) * v3 (ix2 r q)) + v6 (ix2 (n0 := 1) ⟨0, Nat.one_pos⟩ q)) 0 := by
  unfold k0_pay1
  rw [shapeCast_self, shapeCast_self, maximumf_apply, addf_apply, broadcast_apply]
  have hm := Cert.LibDotPlain.matmul_zero_plain 5000 6 16 none
    (truncf .bf16 (v0 : FVec Ideal ⟨2, ![5000, 6]⟩ .f32) bitsLt_bf16_f32)
    (truncf .bf16 (v3 : FVec Ideal ⟨2, ![6, 16]⟩ .f32) bitsLt_bf16_f32) p q
  have hb : broadcastTo S5000x16 v6 broadcasts_S1x16_S5000x16 (ix2 p q) = v6 (ix2 (n0 := 1) ⟨0, Nat.one_pos⟩ q) :=
    broadcastTo_apply v6 broadcasts_S1x16_S5000x16 (ix2 p q) (ix2 (n0 := 1) ⟨0, Nat.one_pos⟩ q) (fun a => match a with
      | ⟨0, _⟩ => by show 0 = if (1 : Nat) = 1 then 0 else _; rw [if_pos rfl]
      | ⟨1, _⟩ => by show q.val = if (16 : Nat) = 1 then 0 else _; rw [if_neg (by decide)]; rfl)
  rw [hb, Ideal.ofBits_def, Ideal.ofBits_zero_f32]
  exact congrArg (fun z => max (z + v6 (ix2 (n0 := 1) ⟨0, Nat.one_pos⟩ q)) 0) hm

/-! ## The index maps -/

theorem hz : (![0, 0] : Fin 2 → Nat) = fun _ => 0 := funext fun a => by fin_cases a <;> rfl

/-- The block indices at every grid point: the input and the output move down one row block per point, the weights
    and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is a row of the array. -/
theorem row_lt (t : Fin cfg0.N) (p : Fin 5000) : t.val * 5000 + p.val < 100000 := by
  have h1 : t.val < 20 := lt_of_lt_of_eq t.isLt N_0
  have h2 := p.isLt
  omega

section
variable (V : (c : Dev nD) → (b : Ref sig .tc) → Buf (Elt Ideal) ((c : Thread nD τ).loc b))

/-! ## The blocks read where they lie in their arrays -/

/-- Entry (p, r) of the input's block at point t is entry (5000·t + p, r) of the input array. -/
theorem x_blk (c : Dev nD) (t : Fin cfg0.N) (p : Fin 5000) (r : Fin 6) :
    iblk0 V c 0 t (ix2 p r) = V c main_v21 (ix2 (n0 := 100000) ⟨t.val * 5000 + p.val, row_lt t p⟩ r) := by
  show V c main_v21 (((cfg0.win 0).blk t).view.emb (ix2 p r)) = _
  refine congrArg (V c main_v21) (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 6 + 1 * r.val = r.val; omega

/-- The weights' block at any point is the whole weight array. -/
theorem w_blk (c : Dev nD) (t : Fin cfg0.N) (r : Fin 6) (q : Fin 16) :
    iblk0 V c 1 t (ix2 r q) = V c main_arg4 (ix2 r q) := by
  show V c main_arg4 (((cfg0.win 1).blk t).view.emb (ix2 r q)) = _
  refine congrArg (V c main_arg4) (funext fun a => Fin.ext ?_)
  obtain ⟨-, -, e2, e3, -⟩ := idx_facts t
  match a with
  | ⟨0, _⟩ => show win0_1.index t (0 : Fin 2) * 6 + 1 * r.val = r.val; omega
  | ⟨1, _⟩ => show win0_1.index t (1 : Fin 2) * 16 + 1 * q.val = q.val; omega

/-- The bias' block at any point is the whole bias row. -/
theorem b_blk (c : Dev nD) (t : Fin cfg0.N) (q : Fin 16) :
    iblk0 V c 2 t (ix2 (n0 := 1) ⟨0, Nat.one_pos⟩ q) = V c main_v22 (ix2 (n0 := 1) ⟨0, Nat.one_pos⟩ q) := by
  show V c main_v22 (((cfg0.win 2).blk t).view.emb (ix2 (n0 := 1) ⟨0, Nat.one_pos⟩ q)) = _
  refine congrArg (V c main_v22) (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 16 + 1 * q.val = q.val; omega

/-- Entry (p, q) of the output's block at point t lies at entry (5000·t + p, q) of the output array. -/
theorem out_emb (t : Fin cfg0.N) (p : Fin 5000) (q : Fin 16) :
    ((cfg0.win 3).blk t).view.emb (ix2 p q) = ix2 (n0 := 100000) ⟨t.val * 5000 + p.val, row_lt t p⟩ q := by
  funext a
  apply Fin.ext
  obtain ⟨-, -, -, -, -, -, e6, e7⟩ := idx_facts t
  match a with
  | ⟨0, _⟩ => show win0_3.index t (0 : Fin 2) * 5000 + 1 * p.val = t.val * 5000 + p.val; omega
  | ⟨1, _⟩ => show win0_3.index t (1 : Fin 2) * 16 + 1 * q.val = q.val; omega

/-! ## What a point writes back, and the array -/

/-- What point t writes back is block t of the linear map and positive part of the arrays the region found. -/
theorem flushed_eq (c : Dev nD) (t : Fin cfg0.N) :
    (dat0 V c).flushed 3 t = ((cfg0.win 3).blk t).view.read (Elt Ideal)
      (Cert.Spec.linRelu 100000 6 16 (V c main_v21) (V c main_arg4) (V c main_v22)) := by
  show (cfg0.win 3).cut (grid0.coords t) ((dat0 V c).after 3 t) = _
  rw [after0_3]
  unfold out0_3
  rw [View.canon_unit_zero hz]
  simp only [View.ld_unit_zero (S := S5000x6) hz, View.ld_unit_zero (S := S6x16) hz, View.ld_unit_zero (S := S1x16) hz]
  funext j
  obtain ⟨p, q, rfl⟩ : ∃ (p : Fin 5000) (q : Fin 16), j = ix2 p q := ⟨j 0, j 1, eq_ix2 j⟩
  show k0_pay1 (F := Ideal) (iblk0 V c 0 t) (iblk0 V c 1 t) (iblk0 V c 2 t) (ix2 p q)
    = Cert.Spec.linRelu 100000 6 16 (V c main_v21) (V c main_arg4) (V c main_v22) (((cfg0.win 3).blk t).view.emb (ix2 p q))
  rw [out_emb t p q, Cert.Spec.linRelu_apply]
  refine (pay_apply (iblk0 V c 0 t) (iblk0 V c 1 t) (iblk0 V c 2 t) p q).trans ?_
  rw [b_blk V c t q]
  refine congrArg (fun z => max (z + V c main_v22 (ix2 (n0 := 1) ⟨0, Nat.one_pos⟩ q)) 0) ?_
  exact Finset.sum_congr rfl fun r _ => by rw [x_blk V c t p r, w_blk V c t r q]

/-- An index of the output array is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v23).slice (win0_3.rect t)).set ↔ _
  rw [View.set_slice_whole, Rect.mem_set_unit]
  exact Iff.rfl

/-- Every entry of the output array is in some point's block: row ρ is in block ρ / 5000. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : (i 0).val / 5000 < cfg0.N := by rw [show cfg0.N = 20 from N_0]; omega
  refine ⟨⟨(i 0).val / 5000, hN⟩, flush0_3 _, ?_⟩
  rw [mem_blk]
  obtain ⟨-, -, -, -, -, -, e6, e7⟩ := idx_facts ⟨(i 0).val / 5000, hN⟩
  have e6' : win0_3.index ⟨(i 0).val / 5000, hN⟩ (0 : Fin 2) = (i 0).val / 5000 := e6
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    omega
  | ⟨1, _⟩ =>
    show win0_3.index ⟨(i 0).val / 5000, hN⟩ (1 : Fin 2) * 16 ≤ (i 1).val
      ∧ (i 1).val < win0_3.index ⟨(i 0).val / 5000, hN⟩ (1 : Fin 2) * 16 + 16
    omega

/-- The output array after the region: the linear map and positive part of the arrays the region found. -/
theorem final (c : Dev nD) :
    (dat0 V c).arrAt 3 cfg0.N = Cert.Spec.linRelu 100000 6 16 (V c main_v21) (V c main_arg4) (V c main_v22) :=
  (dat0 V c).arrAt_eq_of_cover 3 _ (fun t _ => flushed_eq V c t) cover

end

end Cert.KernelIdeal.Region0

end
-- ==== Proof.Fold0.lean ====
/-
  The kernel program's run, read back (first part): the contents of the buffers at the boundaries around region 0.

  The program's run is a sequence of segments — stretches of host operations and the four regions — and the contents
  of every buffer at each boundary are a function of the contents at the boundary before: a stretch leaves in each
  buffer it writes that operation's value of its operands and every other buffer as it found it; a region leaves its
  output array at the linear map and positive part of its three input arrays and every other buffer as it found it.
  Some buffers are written once or never and read again much later: the edges' sources and destinations, the nodes'
  graph numbers, the weights and biases of the layers still to come, and the nodes' weights inv. `Kept` says that a
  boundary still holds them, and it is carried from boundary to boundary.

  Here: the first stretch computes the nodes' weights and the first layer's weighted rows from the launch contents;
  region 0 then leaves the first layer's output.
-/
import proofs.«146016_j24404004176133_1_alg».proof.Proof.Gen.KernelIdeal.Frame
import proofs.«146016_j24404004176133_1_alg».proof.Proof.KChain
import proofs.«146016_j24404004176133_1_alg».proof.Proof.RegionValue0
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- Read a buffer after a stretch of host operations: the stretch is opened, and each operation either gives its
    value of its operands or is passed by, the buffer not being the one it writes. -/
macro "read_stretch" : tactic =>
  `(tactic| (dsimp only [W1, W3, W5, W7, W9, V1, V3, V5, V7, hostOps0, hostOps1, hostOps2, hostOps3, hostOps4]; after_results_simp))

/-- The argument buffers read again after region 0, 1, 2, 3: the edges' sources and destinations, the graph numbers,
    and the weights and biases of the layers still to come. -/
abbrev refs1 : List (Ref sig .tc) :=
  [main_arg1, main_arg2, main_arg3, main_arg6, main_arg7, main_arg8, main_arg9, main_arg10, main_arg11]
abbrev refs2 : List (Ref sig .tc) := [main_arg1, main_arg2, main_arg3, main_arg8, main_arg9, main_arg10, main_arg11]
abbrev refs3 : List (Ref sig .tc) := [main_arg1, main_arg2, main_arg3, main_arg10, main_arg11]
abbrev refs4 : List (Ref sig .tc) := [main_arg1, main_arg2, main_arg3]

variable (m : (ℓ : Loc nD τ sig) → Buf (Elt Ideal) ℓ) (ρ : Dev nD → PrngReg)

/-- The boundary contents `W` on core `c` hold every buffer of `refs` as launched and the nodes' weights inv. -/
def Kept (refs : List (Ref sig .tc)) (c : Dev nD) (W : Valuation τ sig (Elt Ideal)) : Prop :=
  (∀ b ∈ refs, W (Proc.devRef .tc b) = W0 m ρ c (Proc.devRef .tc b))
    ∧ W (Proc.devRef .tc main_v7) = Cert.KChain.inv (m ((c : Thread nD τ).loc main_arg2))

/-! ## After the first stretch -/

theorem kept1 (c : Dev nD) : Kept m ρ refs1 c (W1 m ρ c) := by
  refine ⟨?_, ?_⟩
  · simp only [refs1, List.mem_cons, List.not_mem_nil, or_false, forall_eq_or_imp, forall_eq]
    repeat' apply And.intro
    all_goals read_stretch
  · read_stretch <;> rfl

/-- The first layer's weighted rows. -/
theorem x1 (c : Dev nD) :
    V1 m ρ c main_v21 = Cert.KChain.scaled6 (m ((c : Thread nD τ).loc main_arg0)) (m ((c : Thread nD τ).loc main_arg1))
      (m ((c : Thread nD τ).loc main_arg2)) := by
  read_stretch <;> rfl

/-- The first layer's weights are as launched. -/
theorem w1 (c : Dev nD) : V1 m ρ c main_arg4 = m ((c : Thread nD τ).loc main_arg4) := by
  read_stretch <;> rfl

/-- The first layer's bias as a row. -/
theorem r1 (c : Dev nD) : V1 m ρ c main_v22 = Cert.KChain.row16 (m ((c : Thread nD τ).loc main_arg5)) := by
  read_stretch <;> rfl

/-! ## After region 0 -/

/-- The first layer's output. -/
theorem h1 (c : Dev nD) :
    V2 m ρ c main_v23 = Cert.KChain.h1 (m ((c : Thread nD τ).loc main_arg0)) (m ((c : Thread nD τ).loc main_arg1))
      (m ((c : Thread nD τ).loc main_arg2)) (m ((c : Thread nD τ).loc main_arg4)) (m ((c : Thread nD τ).loc main_arg5)) := by
  refine (W2_arr m ρ c 3).trans ?_
  rw [Cert.KernelIdeal.Region0.final (V1 m ρ) c, x1 m ρ c, w1 m ρ c, r1 m ρ c]
  rfl

/-- None of the buffers kept is one of region 0's arrays. -/
theorem hne0 : ∀ b ∈ refs1, ∀ w, Pipeline.arrRef spec0 w ≠ b := by decide

theorem kept2 (c : Dev nD) : Kept m ρ refs1 c (W2 m ρ c) :=
  have h := kept1 m ρ c
  ⟨fun b hb => (W2_of_ne m ρ c b (hne0 b hb)).trans (h.1 b hb), (W2_of_ne m ρ c main_v7 (by decide)).trans h.2⟩

end Cert.KernelIdeal.Fold

end
-- ==== Proof.RegionValue1.lean ====
/-
  Region 1 (the second layer's linear map and positive part): what its output array holds after the region has run.

  The grid has 20 points; point t stages rows 5000·t … 5000·t + 4999 of the input array (all 16 columns), the whole
  16 × 32 weight array and the whole 1 × 32 bias row, and writes back rows 5000·t … 5000·t + 4999 of the output array
  (all 32 columns). The body computes, for its block, max(x · W + b, 0): entry (p, q) of the block is
  max(∑ r, x(p, r) · W(r, q) + b(0, q), 0) — the product accumulated into zeros, the two roundings to the shorter
  float format being the identity on the extended reals. Row 5000·t + p of the array is row p of block t, the 20
  row blocks tile the 100000 rows, and so the array ends as Spec.linRelu of the three arrays the region found.
-/
import proofs.«146016_j24404004176133_1_alg».proof.Proof.Gen.KernelIdeal.Frame
import proofs.«146016_j24404004176133_1_alg».proof.Proof.Spec
import proofs.«146016_j24404004176133_1_alg».proof.Proof.LibDotPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at entry (p, q) of the block: max(∑ r, x(p, r) · W(r, q) + b(0, q), 0). -/
theorem pay_apply (v0 : Vec Ideal S5000x16 .f32) (v3 : Vec Ideal S16x32 .f32) (v6 : Vec Ideal S1x32 .f32)
    (p : Fin 5000) (q : Fin 32) :
    k1_pay1 (F := Ideal) v0 v3 v6 (ix2 p q)
      = max ((∑ r : Fin 16, v0 (ix2 p r) * v3 (ix2 r q)) + v6 (ix2 (n0 := 1) ⟨0, Nat.one_pos⟩ q)) 0 := by
  unfold k1_pay1
  rw [shapeCast_self, shapeCast_self, maximumf_apply, addf_apply, broadcast_apply]
  have hm := Cert.LibDotPlain.matmul_zero_plain 5000 16 32 none
    (truncf .bf16 (v0 : FVec Ideal ⟨2, ![5000, 16]⟩ .f32) bitsLt_bf16_f32)
    (truncf .bf16 (v3 : FVec Ideal ⟨2, ![16, 32]⟩ .f32) bitsLt_bf16_f32) p q
  have hb : broadcastTo S5000x32 v6 broadcasts_S1x32_S5000x32 (ix2 p q) = v6 (ix2 (n0 := 1) ⟨0, Nat.one_pos⟩ q) :=
    broadcastTo_apply v6 broadcasts_S1x32_S5000x32 (ix2 p q) (ix2 (n0 := 1) ⟨0, Nat.one_pos⟩ q) (fun a => match a with
      | ⟨0, _⟩ => by show 0 = if (1 : Nat) = 1 then 0 else _; rw [if_pos rfl]
      | ⟨1, _⟩ => by show q.val = if (32 : Nat) = 1 then 0 else _; rw [if_neg (by decide)]; rfl)
  rw [hb, Ideal.ofBits_def, Ideal.ofBits_zero_f32]
  exact congrArg (fun z => max (z + v6 (ix2 (n0 := 1) ⟨0, Nat.one_pos⟩ q)) 0) hm

/-! ## The index maps -/

theorem hz : (![0, 0] : Fin 2 → Nat) = fun _ => 0 := funext fun a => by fin_cases a <;> rfl

/-- The block indices at every grid point: the input and the output move down one row block per point, the weights
    and the bias stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is a row of the array. -/
theorem row_lt (t : Fin cfg1.N) (p : Fin 5000) : t.val * 5000 + p.val < 100000 := by
  have h1 : t.val < 20 := lt_of_lt_of_eq t.isLt N_1
  have h2 := p.isLt
  omega

section
variable (V : (c : Dev nD) → (b : Ref sig .tc) → Buf (Elt Ideal) ((c : Thread nD τ).loc b))

/-! ## The blocks read where they lie in their arrays -/

/-- Entry (p, r) of the input's block at point t is entry (5000·t + p, r) of the input array. -/
theorem x_blk (c : Dev nD) (t : Fin cfg1.N) (p : Fin 5000) (r : Fin 16) :
    iblk1 V c 0 t (ix2 p r) = V c main_v37 (ix2 (n0 := 100000) ⟨t.val * 5000 + p.val, row_lt t p⟩ r) := by
  show V c main_v37 (((cfg1.win 0).blk t).view.emb (ix2 p r)) = _
  refine congrArg (V c main_v37) (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 16 + 1 * r.val = r.val; omega

/-- The weights' block at any point is the whole weight array. -/
theorem w_blk (c : Dev nD) (t : Fin cfg1.N) (r : Fin 16) (q : Fin 32) :
    iblk1 V c 1 t (ix2 r q) = V c main_arg6 (ix2 r q) := by
  show V c main_arg6 (((cfg1.win 1).blk t).view.emb (ix2 r q)) = _
  refine congrArg (V c main_arg6) (funext fun a => Fin.ext ?_)
  obtain ⟨-, -, e2, e3, -⟩ := idx_facts t
  match a with
  | ⟨0, _⟩ => show win1_1.index t (0 : Fin 2) * 16 + 1 * r.val = r.val; omega
  | ⟨1, _⟩ => show win1_1.index t (1 : Fin 2) * 32 + 1 * q.val = q.val; omega

/-- The bias' block at any point is the whole bias row. -/
theorem b_blk (c : Dev nD) (t : Fin cfg1.N) (q : Fin 32) :
    iblk1 V c 2 t (ix2 (n0 := 1) ⟨0, Nat.one_pos⟩ q) = V c main_v38 (ix2 (n0 := 1) ⟨0, Nat.one_pos⟩ q) := by
  show V c main_v38 (((cfg1.win 2).blk t).view.emb (ix2 (n0 := 1) ⟨0, Nat.one_pos⟩ q)) = _
  refine congrArg (V c main_v38) (funext fun a => Fin.ext ?_)
  obtain ⟨-, -, -, -, e4, e5, -⟩ := idx_facts t
  match a with
  | ⟨0, _⟩ => show win1_2.index t (0 : Fin 2) * 1 + 1 * 0 = 0; omega
  | ⟨1, _⟩ => show win1_2.index t (1 : Fin 2) * 32 + 1 * q.val = q.val; omega

/-- Entry (p, q) of the output's block at point t lies at entry (5000·t + p, q) of the output array. -/
theorem out_emb (t : Fin cfg1.N) (p : Fin 5000) (q : Fin 32) :
    ((cfg1.win 3).blk t).view.emb (ix2 p q) = ix2 (n0 := 100000) ⟨t.val * 5000 + p.val, row_lt t p⟩ q := by
  funext a
  apply Fin.ext
  obtain ⟨-, -, -, -, -, -, e6, e7⟩ := idx_facts t
  match a with
  | ⟨0, _⟩ => show win1_3.index t (0 : Fin 2) * 5000 + 1 * p.val = t.val * 5000 + p.val; omega
  | ⟨1, _⟩ => show win1_3.index t (1 : Fin 2) * 32 + 1 * q.val = q.val; omega

/-! ## What a point writes back, and the array -/

/-- What point t writes back is block t of the linear map and positive part of the arrays the region found. -/
theorem flushed_eq (c : Dev nD) (t : Fin cfg1.N) :
    (dat1 V c).flushed 3 t = ((cfg1.win 3).blk t).view.read (Elt Ideal)
      (Cert.Spec.linRelu 100000 16 32 (V c main_v37) (V c main_arg6) (V c main_v38)) := by
  show (cfg1.win 3).cut (grid1.coords t) ((dat1 V c).after 3 t) = _
  rw [after1_3]
  unfold out1_3
  rw [View.canon_unit_zero hz]
  simp only [View.ld_unit_zero (S := S5000x16) hz, View.ld_unit_zero (S := S16x32) hz, View.ld_unit_zero (S := S1x32) hz]
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (ix2 p q)
    = Cert.Spec.linRelu 100000 16 32 (V c main_v37) (V c main_arg6) (V c main_v38) (((cfg1.win 3).blk t).view.emb (ix2 p q))
  rw [out_emb t p q, Cert.Spec.linRelu_apply]
  refine (pay_apply (iblk1 V c 0 t) (iblk1 V c 1 t) (iblk1 V c 2 t) p q).trans ?_
  rw [b_blk V c t q]
  refine congrArg (fun z => max (z + V c main_v38 (ix2 (n0 := 1) ⟨0, Nat.one_pos⟩ q)) 0) ?_
  exact Finset.sum_congr rfl fun r _ => by rw [x_blk V c t p r, w_blk V c t r q]

/-- An index of the output array is in point t's block iff each coordinate is in the block's range on its axis. -/
theorem mem_blk (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v39).slice (win1_3.rect t)).set ↔ _
  rw [View.set_slice_whole, Rect.mem_set_unit]
  exact Iff.rfl

/-- Every entry of the output array is in some point's block: row ρ is in block ρ / 5000. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : (i 0).val / 5000 < cfg1.N := by rw [show cfg1.N = 20 from N_1]; omega
  refine ⟨⟨(i 0).val / 5000, hN⟩, flush1_3 _, ?_⟩
  rw [mem_blk]
  obtain ⟨-, -, -, -, -, -, e6, e7⟩ := idx_facts ⟨(i 0).val / 5000, hN⟩
  have e6' : win1_3.index ⟨(i 0).val / 5000, hN⟩ (0 : Fin 2) = (i 0).val / 5000 := e6
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 32 ≤ (i 1).val
      ∧ (i 1).val < win1_3.index ⟨(i 0).val / 5000, hN⟩ (1 : Fin 2) * 32 + 32
    omega

/-- The output array after the region: the linear map and positive part of the arrays the region found. -/
theorem final (c : Dev nD) :
    (dat1 V c).arrAt 3 cfg1.N = Cert.Spec.linRelu 100000 16 32 (V c main_v37) (V c main_arg6) (V c main_v38) :=
  (dat1 V c).arrAt_eq_of_cover 3 _ (fun t _ => flushed_eq V c t) cover

end

end Cert.KernelIdeal.Region1

end
-- ==== Proof.Fold1.lean ====
/-
  The kernel program's run, read back (layer 2 of 4): the contents of the buffers at the boundaries around region 1.

  The stretch of host operations between region 0 and region 1 reads the first layer's output, the edges' sources
  and destinations and the nodes' weights, and leaves the second layer's weighted rows and its bias as a row; it
  writes none of the buffers kept for later. Region 1 then leaves the second layer's output, and touches no kept
  buffer but its own weight array, which is not read again.
-/
import proofs.«146016_j24404004176133_1_alg».proof.Proof.Fold0
import proofs.«146016_j24404004176133_1_alg».proof.Proof.RegionValue1

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the stretch before region 1 -/

/-- The stretch writes none of the buffers kept. -/
theorem pass1 (c : Dev nD) : ∀ b ∈ refs1, W3 m ρ c (Proc.devRef .tc b) = W2 m ρ c (Proc.devRef .tc b) := by
  simp only [refs1, List.mem_cons, List.not_mem_nil, or_false, forall_eq_or_imp, forall_eq]
  repeat' apply And.intro
  all_goals read_stretch

theorem kept3 (c : Dev nD) : Kept m ρ refs1 c (W3 m ρ c) :=
  have h := kept2 m ρ c
  ⟨fun b hb => (pass1 m ρ c b hb).trans (h.1 b hb),
    (by read_stretch : W3 m ρ c (Proc.devRef .tc main_v7) = W2 m ρ c (Proc.devRef .tc main_v7)).trans h.2⟩

/-- This layer's weighted rows, from the layer before's output. -/
theorem x2 (c : Dev nD) :
    V3 m ρ c main_v37 = Cert.KChain.scaled16 (V2 m ρ c main_v23) (m ((c : Thread nD τ).loc main_arg1))
      (m ((c : Thread nD τ).loc main_arg2)) := by
  have h := kept2 m ρ c
  have e1 : W2 m ρ c (Proc.devRef .tc main_arg1) = m ((c : Thread nD τ).loc main_arg1) := h.1 main_arg1 (by decide)
  have e2 : W2 m ρ c (Proc.devRef .tc main_arg2) = m ((c : Thread nD τ).loc main_arg2) := h.1 main_arg2 (by decide)
  read_stretch
  rw [e1, e2, h.2]
  rfl

/-- This layer's weights are as launched. -/
theorem w2 (c : Dev nD) : V3 m ρ c main_arg6 = m ((c : Thread nD τ).loc main_arg6) :=
  (kept3 m ρ c).1 main_arg6 (by decide)

/-- This layer's bias as a row. -/
theorem r2 (c : Dev nD) : V3 m ρ c main_v38 = Cert.KChain.row32 (m ((c : Thread nD τ).loc main_arg7)) := by
  have h := kept2 m ρ c
  have e : W2 m ρ c (Proc.devRef .tc main_arg7) = m ((c : Thread nD τ).loc main_arg7) := h.1 main_arg7 (by decide)
  read_stretch
  rw [e]
  rfl

/-! ## After region 1 -/

/-- This layer's output. -/
theorem h2 (c : Dev nD) :
    V4 m ρ c main_v39 = Cert.KChain.h2 (V2 m ρ c main_v23) (m ((c : Thread nD τ).loc main_arg1))
      (m ((c : Thread nD τ).loc main_arg2)) (m ((c : Thread nD τ).loc main_arg6)) (m ((c : Thread nD τ).loc main_arg7)) := by
  refine (W4_arr m ρ c 3).trans ?_
  rw [Cert.KernelIdeal.Region1.final (V3 m ρ) c, x2 m ρ c, w2 m ρ c, r2 m ρ c]
  rfl

/-- None of the buffers still kept is one of region 1's arrays, and they were all kept before. -/
theorem hne1 : ∀ b ∈ refs2, ∀ w, Pipeline.arrRef spec1 w ≠ b := by decide
theorem sub12 : ∀ b ∈ refs2, b ∈ refs1 := by decide

theorem kept4 (c : Dev nD) : Kept m ρ refs2 c (W4 m ρ c) :=
  have h := kept3 m ρ c
  ⟨fun b hb => (W4_of_ne m ρ c b (hne1 b hb)).trans (h.1 b (sub12 b hb)), (W4_of_ne m ρ c main_v7 (by decide)).trans h.2⟩

end Cert.KernelIdeal.Fold

end
-- ==== Proof.RegionValue2.lean ====
/-
  Region 2 (the third layer's linear map and positive part): what its output array holds after the region has run.

  The grid has 20 points; point t stages rows 5000·t … 5000·t + 4999 of the input array (all 32 columns), the whole
  32 × 64 weight array and the whole 1 × 64 bias row, and writes back rows 5000·t … 5000·t + 4999 of the output array
  (all 64 columns). The body computes, for its block, max(x · W + b, 0): entry (p, q) of the block is
  max(∑ r, x(p, r) · W(r, q) + b(0, q), 0) — the product accumulated into zeros, the two roundings to the shorter
  float format being the identity on the extended reals. Row 5000·t + p of the array is row p of block t, the 20
  row blocks tile the 100000 rows, and so the array ends as Spec.linRelu of the three arrays the region found.
-/
import proofs.«146016_j24404004176133_1_alg».proof.Proof.Gen.KernelIdeal.Frame
import proofs.«146016_j24404004176133_1_alg».proof.Proof.Spec
import proofs.«146016_j24404004176133_1_alg».proof.Proof.LibDotPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at entry (p, q) of the block: max(∑ r, x(p, r) · W(r, q) + b(0, q), 0). -/
theorem pay_apply (v0 : Vec Ideal S5000x32 .f32) (v3 : Vec Ideal S32x64 .f32) (v6 : Vec Ideal S1x64 .f32)
    (p : Fin 5000) (q : Fin 64) :
    k2_pay1 (F := Ideal) v0 v3 v6 (ix2 p q)
      = max ((∑ r : Fin 32, v0 (ix2 p r) * v3 (ix2 r q)) + v6 (ix2 (n0 := 1) ⟨0, Nat.one_pos⟩ q)) 0 := by
  unfold k2_pay1
  rw [shapeCast_self, shapeCast_self, maximumf_apply, addf_apply, broadcast_apply]
  have hm := Cert.LibDotPlain.matmul_zero_plain 5000 32 64 none
    (truncf .bf16 (v0 : FVec Ideal ⟨2, ![5000, 32]⟩ .f32) bitsLt_bf16_f32)
    (truncf .bf16 (v3 : FVec Ideal ⟨2, ![32, 64]⟩ .f32) bitsLt_bf16_f32) p q
  have hb : broadcastTo S5000x64 v6 broadcasts_S1x64_S5000x64 (ix2 p q) = v6 (ix2 (n0 := 1) ⟨0, Nat.one_pos⟩ q) :=
    broadcastTo_apply v6 broadcasts_S1x64_S5000x64 (ix2 p q) (ix2 (n0 := 1) ⟨0, Nat.one_pos⟩ q) (fun a => match a with
      | ⟨0, _⟩ => by show 0 = if (1 : Nat) = 1 then 0 else _; rw [if_pos rfl]
      | ⟨1, _⟩ => by show q.val = if (64 : Nat) = 1 then 0 else _; rw [if_neg (by decide)]; rfl)
  rw [hb, Ideal.ofBits_def, Ideal.ofBits_zero_f32]
  exact congrArg (fun z => max (z + v6 (ix2 (n0 := 1) ⟨0, Nat.one_pos⟩ q)) 0) hm

/-! ## The index maps -/

theorem hz : (![0, 0] : Fin 2 → Nat) = fun _ => 0 := funext fun a => by fin_cases a <;> rfl

/-- The block indices at every grid point: the input and the output move down one row block per point, the weights
    and the bias stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t is a row of the array. -/
theorem row_lt (t : Fin cfg2.N) (p : Fin 5000) : t.val * 5000 + p.val < 100000 := by
  have h1 : t.val < 20 := lt_of_lt_of_eq t.isLt N_2
  have h2 := p.isLt
  omega

section
variable (V : (c : Dev nD) → (b : Ref sig .tc) → Buf (Elt Ideal) ((c : Thread nD τ).loc b))

/-! ## The blocks read where they lie in their arrays -/

/-- Entry (p, r) of the input's block at point t is entry (5000·t + p, r) of the input array. -/
theorem x_blk (c : Dev nD) (t : Fin cfg2.N) (p : Fin 5000) (r : Fin 32) :
    iblk2 V c 0 t (ix2 p r) = V c main_v53 (ix2 (n0 := 100000) ⟨t.val * 5000 + p.val, row_lt t p⟩ r) := by
  show V c main_v53 (((cfg2.win 0).blk t).view.emb (ix2 p r)) = _
  refine congrArg (V c main_v53) (funext fun a => Fin.ext ?_)
  obtain ⟨e0, e1, -⟩ := idx_facts t
  match a with
  | ⟨0, _⟩ => show win2_0.index t (0 : Fin 2) * 5000 + 1 * p.val = t.val * 5000 + p.val; omega
  | ⟨1, _⟩ => show win2_0.index t (1 : Fin 2) * 32 + 1 * r.val = r.val; omega

/-- The weights' block at any point is the whole weight array. -/
theorem w_blk (c : Dev nD) (t : Fin cfg2.N) (r : Fin 32) (q : Fin 64) :
    iblk2 V c 1 t (ix2 r q) = V c main_arg8 (ix2 r q) := by
  show V c main_arg8 (((cfg2.win 1).blk t).view.emb (ix2 r q)) = _
  refine congrArg (V c main_arg8) (funext fun a => Fin.ext ?_)
  obtain ⟨-, -, e2, e3, -⟩ := idx_facts t
  match a with
  | ⟨0, _⟩ => show win2_1.index t (0 : Fin 2) * 32 + 1 * r.val = r.val; omega
  | ⟨1, _⟩ => show win2_1.index t (1 : Fin 2) * 64 + 1 * q.val = q.val; omega

/-- The bias' block at any point is the whole bias row. -/
theorem b_blk (c : Dev nD) (t : Fin cfg2.N) (q : Fin 64) :
    iblk2 V c 2 t (ix2 (n0 := 1) ⟨0, Nat.one_pos⟩ q) = V c main_v54 (ix2 (n0 := 1) ⟨0, Nat.one_pos⟩ q) := by
  show V c main_v54 (((cfg2.win 2).blk t).view.emb (ix2 (n0 := 1) ⟨0, Nat.one_pos⟩ q)) = _
  refine congrArg (V c main_v54) (funext fun a => Fin.ext ?_)
  obtain ⟨-, -, -, -, e4, e5, -⟩ := idx_facts t
  match a with
  | ⟨0, _⟩ => show win2_2.index t (0 : Fin 2) * 1 + 1 * 0 = 0; omega
  | ⟨1, _⟩ => show win2_2.index t (1 : Fin 2) * 64 + 1 * q.val = q.val; omega

/-- Entry (p, q) of the output's block at point t lies at entry (5000·t + p, q) of the output array. -/
theorem out_emb (t : Fin cfg2.N) (p : Fin 5000) (q : Fin 64) :
    ((cfg2.win 3).blk t).view.emb (ix2 p q) = ix2 (n0 := 100000) ⟨t.val * 5000 + p.val, row_lt t p⟩ q := by
  funext a
  apply Fin.ext
  obtain ⟨-, -, -, -, -, -, e6, e7⟩ := idx_facts t
  match a with
  | ⟨0, _⟩ => show win2_3.index t (0 : Fin 2) * 5000 + 1 * p.val = t.val * 5000 + p.val; omega
  | ⟨1, _⟩ => show win2_3.index t (1 : Fin 2) * 64 + 1 * q.val = q.val; omega

/-! ## What a point writes back, and the array -/

/-- What point t writes back is block t of the linear map and positive part of the arrays the region found. -/
theorem flushed_eq (c : Dev nD) (t : Fin cfg2.N) :
    (dat2 V c).flushed 3 t = ((cfg2.win 3).blk t).view.read (Elt Ideal)
      (Cert.Spec.linRelu 100000 32 64 (V c main_v53) (V c main_arg8) (V c main_v54)) := by
  show (cfg2.win 3).cut (grid2.coords t) ((dat2 V c).after 3 t) = _
  rw [after2_3]
  unfold out2_3
  rw [View.canon_unit_zero hz]
  simp only [View.ld_unit_zero (S := S5000x32) hz, View.ld_unit_zero (S := S32x64) hz, View.ld_unit_zero (S := S1x64) hz]
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = Cert.Spec.linRelu 100000 32 64 (V c main_v53) (V c main_arg8) (V c main_v54) (((cfg2.win 3).blk t).view.emb (ix2 p q))
  rw [out_emb t p q, Cert.Spec.linRelu_apply]
  refine (pay_apply (iblk2 V c 0 t) (iblk2 V c 1 t) (iblk2 V c 2 t) p q).trans ?_
  rw [b_blk V c t q]
  refine congrArg (fun z => max (z + V c main_v54 (ix2 (n0 := 1) ⟨0, Nat.one_pos⟩ q)) 0) ?_
  exact Finset.sum_congr rfl fun r _ => by rw [x_blk V c t p r, w_blk V c t r q]

/-- An index of the output array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v55).slice (win2_3.rect t)).set ↔ _
  rw [View.set_slice_whole, Rect.mem_set_unit]
  exact Iff.rfl

/-- Every entry of the output array is in some point's block: row ρ is in block ρ / 5000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 5000 < cfg2.N := by rw [show cfg2.N = 20 from N_2]; omega
  refine ⟨⟨(i 0).val / 5000, hN⟩, flush2_3 _, ?_⟩
  rw [mem_blk]
  obtain ⟨-, -, -, -, -, -, e6, e7⟩ := idx_facts ⟨(i 0).val / 5000, hN⟩
  have e6' : win2_3.index ⟨(i 0).val / 5000, hN⟩ (0 : Fin 2) = (i 0).val / 5000 := e6
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 64 ≤ (i 1).val
      ∧ (i 1).val < win2_3.index ⟨(i 0).val / 5000, hN⟩ (1 : Fin 2) * 64 + 64
    omega

/-- The output array after the region: the linear map and positive part of the arrays the region found. -/
theorem final (c : Dev nD) :
    (dat2 V c).arrAt 3 cfg2.N = Cert.Spec.linRelu 100000 32 64 (V c main_v53) (V c main_arg8) (V c main_v54) :=
  (dat2 V c).arrAt_eq_of_cover 3 _ (fun t _ => flushed_eq V c t) cover

end

end Cert.KernelIdeal.Region2

end
-- ==== Proof.Fold2.lean ====
/-
  The kernel program's run, read back (layer 3 of 4): the contents of the buffers at the boundaries around region 2.

  The stretch of host operations between region 1 and region 2 reads the second layer's output, the edges' sources
  and destinations and the nodes' weights, and leaves the third layer's weighted rows and its bias as a row; it
  writes none of the buffers kept for later. Region 2 then leaves the third layer's output, and touches no kept
  buffer but its own weight array, which is not read again.
-/
import proofs.«146016_j24404004176133_1_alg».proof.Proof.Fold1
import proofs.«146016_j24404004176133_1_alg».proof.Proof.RegionValue2

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the stretch before region 2 -/

/-- The stretch writes none of the buffers kept. -/
theorem pass2 (c : Dev nD) : ∀ b ∈ refs2, W5 m ρ c (Proc.devRef .tc b) = W4 m ρ c (Proc.devRef .tc b) := by
  simp only [refs2, List.mem_cons, List.not_mem_nil, or_false, forall_eq_or_imp, forall_eq]
  repeat' apply And.intro
  all_goals read_stretch

theorem kept5 (c : Dev nD) : Kept m ρ refs2 c (W5 m ρ c) :=
  have h := kept4 m ρ c
  ⟨fun b hb => (pass2 m ρ c b hb).trans (h.1 b hb),
    (by read_stretch : W5 m ρ c (Proc.devRef .tc main_v7) = W4 m ρ c (Proc.devRef .tc main_v7)).trans h.2⟩

/-- This layer's weighted rows, from the layer before's output. -/
theorem x3 (c : Dev nD) :
    V5 m ρ c main_v53 = Cert.KChain.scaled32 (V4 m ρ c main_v39) (m ((c : Thread nD τ).loc main_arg1))
      (m ((c : Thread nD τ).loc main_arg2)) := by
  have h := kept4 m ρ c
  have e1 : W4 m ρ c (Proc.devRef .tc main_arg1) = m ((c : Thread nD τ).loc main_arg1) := h.1 main_arg1 (by decide)
  have e2 : W4 m ρ c (Proc.devRef .tc main_arg2) = m ((c : Thread nD τ).loc main_arg2) := h.1 main_arg2 (by decide)
  read_stretch
  rw [e1, e2, h.2]
  rfl

/-- This layer's weights are as launched. -/
theorem w3 (c : Dev nD) : V5 m ρ c main_arg8 = m ((c : Thread nD τ).loc main_arg8) :=
  (kept5 m ρ c).1 main_arg8 (by decide)

/-- This layer's bias as a row. -/
theorem r3 (c : Dev nD) : V5 m ρ c main_v54 = Cert.KChain.row64 (m ((c : Thread nD τ).loc main_arg9)) := by
  have h := kept4 m ρ c
  have e : W4 m ρ c (Proc.devRef .tc main_arg9) = m ((c : Thread nD τ).loc main_arg9) := h.1 main_arg9 (by decide)
  read_stretch
  rw [e]
  rfl

/-! ## After region 2 -/

/-- This layer's output. -/
theorem h3 (c : Dev nD) :
    V6 m ρ c main_v55 = Cert.KChain.h3 (V4 m ρ c main_v39) (m ((c : Thread nD τ).loc main_arg1))
      (m ((c : Thread nD τ).loc main_arg2)) (m ((c : Thread nD τ).loc main_arg8)) (m ((c : Thread nD τ).loc main_arg9)) := by
  refine (W6_arr m ρ c 3).trans ?_
  rw [Cert.KernelIdeal.Region2.final (V5 m ρ) c, x3 m ρ c, w3 m ρ c, r3 m ρ c]
  rfl

/-- None of the buffers still kept is one of region 2's arrays, and they were all kept before. -/
theorem hne2 : ∀ b ∈ refs3, ∀ w, Pipeline.arrRef spec2 w ≠ b := by decide
theorem sub23 : ∀ b ∈ refs3, b ∈ refs2 := by decide

theorem kept6 (c : Dev nD) : Kept m ρ refs3 c (W6 m ρ c) :=
  have h := kept5 m ρ c
  ⟨fun b hb => (W6_of_ne m ρ c b (hne2 b hb)).trans (h.1 b (sub23 b hb)), (W6_of_ne m ρ c main_v7 (by decide)).trans h.2⟩

end Cert.KernelIdeal.Fold

end
-- ==== Proof.RegionValue3.lean ====
/-
  Region 3 (the fourth layer's linear map and positive part): what its output array holds after the region has run.

  The grid has 20 points; point t stages rows 5000·t … 5000·t + 4999 of the input array (all 64 columns), the whole
  64 × 64 weight array and the whole 1 × 64 bias row, and writes back rows 5000·t … 5000·t + 4999 of the output array
  (all 64 columns). The body computes, for its block, max(x · W + b, 0): entry (p, q) of the block is
  max(∑ r, x(p, r) · W(r, q) + b(0, q), 0) — the product accumulated into zeros, the two roundings to the shorter
  float format being the identity on the extended reals. Row 5000·t + p of the array is row p of block t, the 20
  row blocks tile the 100000 rows, and so the array ends as Spec.linRelu of the three arrays the region found.
-/
import proofs.«146016_j24404004176133_1_alg».proof.Proof.Gen.KernelIdeal.Frame
import proofs.«146016_j24404004176133_1_alg».proof.Proof.Spec
import proofs.«146016_j24404004176133_1_alg».proof.Proof.LibDotPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at entry (p, q) of the block: max(∑ r, x(p, r) · W(r, q) + b(0, q), 0). -/
theorem pay_apply (v0 : Vec Ideal S5000x64 .f32) (v3 : Vec Ideal S64x64 .f32) (v6 : Vec Ideal S1x64 .f32)
    (p : Fin 5000) (q : Fin 64) :
    k3_pay1 (F := Ideal) v0 v3 v6 (ix2 p q)
      = max ((∑ r : Fin 64, v0 (ix2 p r) * v3 (ix2 r q)) + v6 (ix2 (n0 := 1) ⟨0, Nat.one_pos⟩ q)) 0 := by
  unfold k3_pay1
  rw [shapeCast_self, shapeCast_self, maximumf_apply, addf_apply, broadcast_apply]
  have hm := Cert.LibDotPlain.matmul_zero_plain 5000 64 64 none
    (truncf .bf16 (v0 : FVec Ideal ⟨2, ![5000, 64]⟩ .f32) bitsLt_bf16_f32)
    (truncf .bf16 (v3 : FVec Ideal ⟨2, ![64, 64]⟩ .f32) bitsLt_bf16_f32) p q
  have hb : broadcastTo S5000x64 v6 broadcasts_S1x64_S5000x64 (ix2 p q) = v6 (ix2 (n0 := 1) ⟨0, Nat.one_pos⟩ q) :=
    broadcastTo_apply v6 broadcasts_S1x64_S5000x64 (ix2 p q) (ix2 (n0 := 1) ⟨0, Nat.one_pos⟩ q) (fun a => match a with
      | ⟨0, _⟩ => by show 0 = if (1 : Nat) = 1 then 0 else _; rw [if_pos rfl]
      | ⟨1, _⟩ => by show q.val = if (64 : Nat) = 1 then 0 else _; rw [if_neg (by decide)]; rfl)
  rw [hb, Ideal.ofBits_def, Ideal.ofBits_zero_f32]
  exact congrArg (fun z => max (z + v6 (ix2 (n0 := 1) ⟨0, Nat.one_pos⟩ q)) 0) hm

/-! ## The index maps -/

theorem hz : (![0, 0] : Fin 2 → Nat) = fun _ => 0 := funext fun a => by fin_cases a <;> rfl

/-- The block indices at every grid point: the input and the output move down one row block per point, the weights
    and the bias stay at their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of block t is a row of the array. -/
theorem row_lt (t : Fin cfg3.N) (p : Fin 5000) : t.val * 5000 + p.val < 100000 := by
  have h1 : t.val < 20 := lt_of_lt_of_eq t.isLt N_3
  have h2 := p.isLt
  omega

section
variable (V : (c : Dev nD) → (b : Ref sig .tc) → Buf (Elt Ideal) ((c : Thread nD τ).loc b))

/-! ## The blocks read where they lie in their arrays -/

/-- Entry (p, r) of the input's block at point t is entry (5000·t + p, r) of the input array. -/
theorem x_blk (c : Dev nD) (t : Fin cfg3.N) (p : Fin 5000) (r : Fin 64) :
    iblk3 V c 0 t (ix2 p r) = V c main_v69 (ix2 (n0 := 100000) ⟨t.val * 5000 + p.val, row_lt t p⟩ r) := by
  show V c main_v69 (((cfg3.win 0).blk t).view.emb (ix2 p r)) = _
  refine congrArg (V c main_v69) (funext fun a => Fin.ext ?_)
  obtain ⟨e0, e1, -⟩ := idx_facts t
  match a with
  | ⟨0, _⟩ => show win3_0.index t (0 : Fin 2) * 5000 + 1 * p.val = t.val * 5000 + p.val; omega
  | ⟨1, _⟩ => show win3_0.index t (1 : Fin 2) * 64 + 1 * r.val = r.val; omega

/-- The weights' block at any point is the whole weight array. -/
theorem w_blk (c : Dev nD) (t : Fin cfg3.N) (r : Fin 64) (q : Fin 64) :
    iblk3 V c 1 t (ix2 r q) = V c main_arg10 (ix2 r q) := by
  show V c main_arg10 (((cfg3.win 1).blk t).view.emb (ix2 r q)) = _
  refine congrArg (V c main_arg10) (funext fun a => Fin.ext ?_)
  obtain ⟨-, -, e2, e3, -⟩ := idx_facts t
  match a with
  | ⟨0, _⟩ => show win3_1.index t (0 : Fin 2) * 64 + 1 * r.val = r.val; omega
  | ⟨1, _⟩ => show win3_1.index t (1 : Fin 2) * 64 + 1 * q.val = q.val; omega

/-- The bias' block at any point is the whole bias row. -/
theorem b_blk (c : Dev nD) (t : Fin cfg3.N) (q : Fin 64) :
    iblk3 V c 2 t (ix2 (n0 := 1) ⟨0, Nat.one_pos⟩ q) = V c main_v70 (ix2 (n0 := 1) ⟨0, Nat.one_pos⟩ q) := by
  show V c main_v70 (((cfg3.win 2).blk t).view.emb (ix2 (n0 := 1) ⟨0, Nat.one_pos⟩ q)) = _
  refine congrArg (V c main_v70) (funext fun a => Fin.ext ?_)
  obtain ⟨-, -, -, -, e4, e5, -⟩ := idx_facts t
  match a with
  | ⟨0, _⟩ => show win3_2.index t (0 : Fin 2) * 1 + 1 * 0 = 0; omega
  | ⟨1, _⟩ => show win3_2.index t (1 : Fin 2) * 64 + 1 * q.val = q.val; omega

/-- Entry (p, q) of the output's block at point t lies at entry (5000·t + p, q) of the output array. -/
theorem out_emb (t : Fin cfg3.N) (p : Fin 5000) (q : Fin 64) :
    ((cfg3.win 3).blk t).view.emb (ix2 p q) = ix2 (n0 := 100000) ⟨t.val * 5000 + p.val, row_lt t p⟩ q := by
  funext a
  apply Fin.ext
  obtain ⟨-, -, -, -, -, -, e6, e7⟩ := idx_facts t
  match a with
  | ⟨0, _⟩ => show win3_3.index t (0 : Fin 2) * 5000 + 1 * p.val = t.val * 5000 + p.val; omega
  | ⟨1, _⟩ => show win3_3.index t (1 : Fin 2) * 64 + 1 * q.val = q.val; omega

/-! ## What a point writes back, and the array -/

/-- What point t writes back is block t of the linear map and positive part of the arrays the region found. -/
theorem flushed_eq (c : Dev nD) (t : Fin cfg3.N) :
    (dat3 V c).flushed 3 t = ((cfg3.win 3).blk t).view.read (Elt Ideal)
      (Cert.Spec.linRelu 100000 64 64 (V c main_v69) (V c main_arg10) (V c main_v70)) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (ix2 p q)
    = Cert.Spec.linRelu 100000 64 64 (V c main_v69) (V c main_arg10) (V c main_v70) (((cfg3.win 3).blk t).view.emb (ix2 p q))
  rw [out_emb t p q, Cert.Spec.linRelu_apply]
  refine (pay_apply (iblk3 V c 0 t) (iblk3 V c 1 t) (iblk3 V c 2 t) p q).trans ?_
  rw [b_blk V c t q]
  refine congrArg (fun z => max (z + V c main_v70 (ix2 (n0 := 1) ⟨0, Nat.one_pos⟩ q)) 0) ?_
  exact Finset.sum_congr rfl fun r _ => by rw [x_blk V c t p r, w_blk V c t r q]

/-- An index of the output array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v71).slice (win3_3.rect t)).set ↔ _
  rw [View.set_slice_whole, Rect.mem_set_unit]
  exact Iff.rfl

/-- Every entry of the output array is in some point's block: row ρ is in block ρ / 5000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : (i 0).val / 5000 < cfg3.N := by rw [show cfg3.N = 20 from N_3]; omega
  refine ⟨⟨(i 0).val / 5000, hN⟩, flush3_3 _, ?_⟩
  rw [mem_blk]
  obtain ⟨-, -, -, -, -, -, e6, e7⟩ := idx_facts ⟨(i 0).val / 5000, hN⟩
  have e6' : win3_3.index ⟨(i 0).val / 5000, hN⟩ (0 : Fin 2) = (i 0).val / 5000 := e6
  intro a
  match a with
  | ⟨0, _⟩ =>
    show win3_3.index ⟨(i 0).val / 5000, hN⟩ (0 : Fin 2) * 5000 ≤ (i 0).val
      ∧ (i 0).val < win3_3.index ⟨(i 0).val / 5000, hN⟩ (0 : Fin 2) * 5000 + 5000
    omega
  | ⟨1, _⟩ =>
    show win3_3.index ⟨(i 0).val / 5000, hN⟩ (1 : Fin 2) * 64 ≤ (i 1).val
      ∧ (i 1).val < win3_3.index ⟨(i 0).val / 5000, hN⟩ (1 : Fin 2) * 64 + 64
    omega

/-- The output array after the region: the linear map and positive part of the arrays the region found. -/
theorem final (c : Dev nD) :
    (dat3 V c).arrAt 3 cfg3.N = Cert.Spec.linRelu 100000 64 64 (V c main_v69) (V c main_arg10) (V c main_v70) :=
  (dat3 V c).arrAt_eq_of_cover 3 _ (fun t _ => flushed_eq V c t) cover

end

end Cert.KernelIdeal.Region3

end
-- ==== Proof.Fold3.lean ====
/-
  The kernel program's run, read back (layer 4 of 4): the contents of the buffers at the boundaries around region 3.

  The stretch of host operations between region 2 and region 3 reads the third layer's output, the edges' sources
  and destinations and the nodes' weights, and leaves the fourth layer's weighted rows and its bias as a row; it
  writes none of the buffers kept for later. Region 3 then leaves the fourth layer's output, and touches no kept
  buffer but its own weight array, which is not read again.
-/
import proofs.«146016_j24404004176133_1_alg».proof.Proof.Fold2
import proofs.«146016_j24404004176133_1_alg».proof.Proof.RegionValue3

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the stretch before region 3 -/

/-- The stretch writes none of the buffers kept. -/
theorem pass3 (c : Dev nD) : ∀ b ∈ refs3, W7 m ρ c (Proc.devRef .tc b) = W6 m ρ c (Proc.devRef .tc b) := by
  simp only [refs3, List.mem_cons, List.not_mem_nil, or_false, forall_eq_or_imp, forall_eq]
  repeat' apply And.intro
  all_goals read_stretch

theorem kept7 (c : Dev nD) : Kept m ρ refs3 c (W7 m ρ c) :=
  have h := kept6 m ρ c
  ⟨fun b hb => (pass3 m ρ c b hb).trans (h.1 b hb),
    (by read_stretch : W7 m ρ c (Proc.devRef .tc main_v7) = W6 m ρ c (Proc.devRef .tc main_v7)).trans h.2⟩

/-- This layer's weighted rows, from the layer before's output. -/
theorem x4 (c : Dev nD) :
    V7 m ρ c main_v69 = Cert.KChain.scaled64 (V6 m ρ c main_v55) (m ((c : Thread nD τ).loc main_arg1))
      (m ((c : Thread nD τ).loc main_arg2)) := by
  have h := kept6 m ρ c
  have e1 : W6 m ρ c (Proc.devRef .tc main_arg1) = m ((c : Thread nD τ).loc main_arg1) := h.1 main_arg1 (by decide)
  have e2 : W6 m ρ c (Proc.devRef .tc main_arg2) = m ((c : Thread nD τ).loc main_arg2) := h.1 main_arg2 (by decide)
  read_stretch
  rw [e1, e2, h.2]
  rfl

/-- This layer's weights are as launched. -/
theorem w4 (c : Dev nD) : V7 m ρ c main_arg10 = m ((c : Thread nD τ).loc main_arg10) :=
  (kept7 m ρ c).1 main_arg10 (by decide)

/-- This layer's bias as a row. -/
theorem r4 (c : Dev nD) : V7 m ρ c main_v70 = Cert.KChain.row64 (m ((c : Thread nD τ).loc main_arg11)) := by
  have h := kept6 m ρ c
  have e : W6 m ρ c (Proc.devRef .tc main_arg11) = m ((c : Thread nD τ).loc main_arg11) := h.1 main_arg11 (by decide)
  read_stretch
  rw [e]
  rfl

/-! ## After region 3 -/

/-- This layer's output. -/
theorem h4 (c : Dev nD) :
    V8 m ρ c main_v71 = Cert.KChain.h4 (V6 m ρ c main_v55) (m ((c : Thread nD τ).loc main_arg1))
      (m ((c : Thread nD τ).loc main_arg2)) (m ((c : Thread nD τ).loc main_arg10)) (m ((c : Thread nD τ).loc main_arg11)) := by
  refine (W8_arr m ρ c 3).trans ?_
  rw [Cert.KernelIdeal.Region3.final (V7 m ρ) c, x4 m ρ c, w4 m ρ c, r4 m ρ c]
  rfl

/-- None of the buffers still kept is one of region 3's arrays, and they were all kept before. -/
theorem hne3 : ∀ b ∈ refs4, ∀ w, Pipeline.arrRef spec3 w ≠ b := by decide
theorem sub34 : ∀ b ∈ refs4, b ∈ refs3 := by decide

theorem kept8 (c : Dev nD) : Kept m ρ refs4 c (W8 m ρ c) :=
  have h := kept7 m ρ c
  ⟨fun b hb => (W8_of_ne m ρ c b (hne3 b hb)).trans (h.1 b (sub34 b hb)), (W8_of_ne m ρ c main_v7 (by decide)).trans h.2⟩

end Cert.KernelIdeal.Fold

end
-- ==== Proof.FoldEnd.lean ====
/-
  The kernel program's run, read back (last part): the result.

  The last stretch of host operations reads the fourth layer's output and the nodes' graph numbers and leaves, per
  graph, the sum of the graph's nodes' rows divided by max(number of the graph's nodes, 1). With the four layers'
  outputs read back before, the result buffer holds the chain's value `KChain.result` of the launch contents.
-/
import proofs.«146016_j24404004176133_1_alg».proof.Proof.Fold3

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer after the run is the chain's value of the launch contents. -/
theorem result_eq (c : Dev nD) :
    W9 m ρ c (Proc.devRef .tc main_v83)
      = Cert.KChain.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  have h := kept8 m ρ c
  have e3 : W8 m ρ c (Proc.devRef .tc main_arg3) = m ((c : Thread nD τ).loc main_arg3) := h.1 main_arg3 (by decide)
  have e4 : W8 m ρ c (Proc.devRef .tc main_v71) = _ := h4 m ρ c
  read_stretch
  rw [e3, e4, h3 m ρ c, h2 m ρ c, h1 m ρ c]
  rfl

end Cert.KernelIdeal.Fold

end
-- ==== Proof.ChainLaws.lean ====
/-
  The laws that join the two programs' spellings of one layer, stated once for every width.

  * deg(v) ≥ 0 (a sum of ones over the edges that end at v, added to zero), so deg(v) + 1 ≠ 0 and inv(v) is the
    reciprocal of a number other than zero.
  * The quotient form of the weighted rows: dividing the aggregated row of node v by deg(v) + 1 — the count laid out as
    an n × 1 column, one added, the column repeated along the row — is multiplying it by inv(v) (`scaled`). This is the
    reciprocal law s · (1 / t) = s / t for t ≠ 0, entry by entry.
  * A bias vector as a 1 × n row, read at (0, j), is the vector's entry j.
  * The host's product of an M × K array with a K × N array, plus the bias vector repeated along the rows, then the
    maximum with zero, is `Spec.linRelu` of the same arrays with the bias as a row: entry (i, j) of the product is
    ∑ q, x(i, q) · W(q, j), and both bias layouts put b(j) in column j.
-/
import proofs.«146016_j24404004176133_1_alg».proof.Proof.KChain
import proofs.«146016_j24404004176133_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KChain

open Cert.KernelIdeal Cert.KernelIdeal.Facts₀ Cert.KernelIdeal.Facts Idealize.ShloMosaic Idealize.ShloMosaic.ValueIdx

/-- Every node's count of incoming edges is nonnegative. -/
theorem deg_nonneg (dst : IVec S1600000 32) (e : S100000.Idx) : 0 ≤ deg dst e := by
  unfold deg
  rw [Cert.Spec.scatterAdd_eq]
  refine Cert.Spec.scatterAdd_nonneg _ _ _ _ (fun i => ?_) (fun j => ?_) e
  · rw [Cert.Spec.splat_apply, Ideal.ofBits_zero_f32]
  · rw [Cert.Spec.splat_apply, Cert.Spec.one_f32]
    exact zero_le_one

/-- inv(v) is one over deg(v) + 1. -/
theorem inv_apply (dst : IVec S1600000 32) (e : S100000.Idx) : inv dst e = Ideal.div 1 (deg dst e + 1) := by
  unfold inv
  rw [Cert.Spec.hostDivf_apply, addf_apply, Cert.Spec.splat_apply, Cert.Spec.one_f32]

/-- A count laid out as a column and repeated along the rows of an n × d array, read at (i, q), is node i's. -/
theorem col_apply {d : Nat} (hb : S100000x1.BroadcastsInDim (Nodes d) (![0, 1] : Fin 2 → Fin (Nodes d).rank))
    (v : FVec Ideal S100000x1 .f32) (i : Fin 100000) (q : Fin d) :
    broadcastInDim (Nodes d) ![0, 1] hb v (ix2 i q) = v (ix2 i (n1 := 1) ⟨0, Nat.one_pos⟩) :=
  broadcastInDim_apply ![0, 1] hb v (ix2 i q) (ix2 i (n1 := 1) ⟨0, Nat.one_pos⟩) (fun a => match a with
    | ⟨0, _⟩ => by show i.val = if (100000 : Nat) = 1 then 0 else i.val; rw [if_neg (by decide)]
    | ⟨1, _⟩ => by show 0 = if (1 : Nat) = 1 then 0 else q.val; rw [if_pos rfl])

/-- A vector over the nodes laid out as a column, read at (i, 0), is node i's entry. -/
theorem colOf_apply (v : FVec Ideal S100000 .f32) (i : Fin 100000) :
    broadcastInDim S100000x1 ![0] bcast_S100000_S100000x1_0 v (ix2 i (n1 := 1) ⟨0, Nat.one_pos⟩) = v (ix1 i) :=
  broadcastInDim_apply ![0] bcast_S100000_S100000x1_0 v (ix2 i (n1 := 1) ⟨0, Nat.one_pos⟩) (ix1 i) (fun a => match a with
    | ⟨0, _⟩ => by show i.val = if (100000 : Nat) = 1 then 0 else i.val; rw [if_neg (by decide)])

section Width

variable {d : Nat} (sc : ScatterDims (Nodes d) S1600000x1 (Edges d)) (ga : GatherDims (Nodes d) S1600000x1 (Edges d))
  (hz : S_.BroadcastsInDim (Nodes d) (![] : Fin 0 → Fin (Nodes d).rank))
  (hb : S100000x1.BroadcastsInDim (Nodes d) (![0, 1] : Fin 2 → Fin (Nodes d).rank))

/-- The quotient form of a layer's weighted rows is the reciprocal form: the aggregated rows divided by the counts
    plus one, the counts as a column with one added and the column repeated along the rows. -/
theorem quotient_eq_scaled (h1 : S_.BroadcastsInDim S100000x1 (![] : Fin 0 → Fin S100000x1.rank))
    (h : FVec Ideal (Nodes d) .f32) (src dst : IVec S1600000 32) :
    Host.divf (agg sc ga hz h src dst)
        (broadcastInDim (Nodes d) ![0, 1] hb
          (addf (broadcastInDim S100000x1 ![0] bcast_S100000_S100000x1_0 (deg dst))
            (broadcastInDim S100000x1 ![] h1 (constant S_ .f32 0x3F800000#32))))
      = scaled sc ga hz hb h src dst := by
  funext e
  obtain ⟨i, q, rfl⟩ : ∃ (i : Fin 100000) (q : Fin d), e = ix2 i q := ⟨e 0, e 1, eq_ix2 e⟩
  unfold scaled
  rw [Cert.Spec.hostDivf_apply, mulf_apply, col_apply hb, col_apply hb, addf_apply, colOf_apply, colOf_apply,
    Cert.Spec.splat_apply, Cert.Spec.one_f32, inv_apply]
  exact (Cert.Spec.mul_recip _ _ (Cert.Spec.add_one_ne_zero (deg_nonneg dst _))).symm

end Width

/-- A bias row read at (0, j) is the bias vector's entry j. -/
theorem row_apply {n : Nat} (hc : (⟨1, ![n]⟩ : Shape).ShapeCasts ⟨2, ![1, n]⟩) (b : FVec Ideal ⟨1, ![n]⟩ .f32) (j : Fin n) :
    row hc b (ix2 (n0 := 1) ⟨0, Nat.one_pos⟩ j) = b (ix1 j) :=
  (shapeCast_addUnit_apply ![n] b hc (ix2 (n0 := 1) ⟨0, Nat.one_pos⟩ j)).trans
    (congrArg b (show (fun a : Fin 1 => ix2 (n0 := 1) ⟨0, Nat.one_pos⟩ j a.succ) = ix1 j from funext fun a => match a with | ⟨0, _⟩ => rfl))

/-- A bias vector laid out as a 1 × N row and repeated along M rows, read at (i, j), is the vector's entry j. -/
theorem biasRows_apply (M N : Nat)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (b : FVec Ideal ⟨1, ![N]⟩ .f32) (i : Fin M) (j : Fin N) :
    broadcastInDim ⟨2, ![M, N]⟩ ![0, 1] hb2 (broadcastInDim ⟨2, ![1, N]⟩ ![1] hb1 b) (ix2 i j) = b (ix1 j) := by
  have hj : j.val = if N = 1 then 0 else j.val := by
    have := j.isLt
    split <;> omega
  refine (broadcastInDim_apply ![0, 1] hb2 (broadcastInDim ⟨2, ![1, N]⟩ ![1] hb1 b) (ix2 i j)
    (ix2 (n0 := 1) ⟨0, Nat.one_pos⟩ j) ?_).trans ?_
  · intro a
    match a with
    | ⟨0, _⟩ => show 0 = if (1 : Nat) = 1 then 0 else i.val; rw [if_pos rfl]
    | ⟨1, _⟩ => show j.val = if N = 1 then 0 else j.val; exact hj
  · exact broadcastInDim_apply ![1] hb1 b (ix2 (n0 := 1) ⟨0, Nat.one_pos⟩ j) (ix1 j) (fun a => match a with
      | ⟨0, _⟩ => by show j.val = if N = 1 then 0 else j.val; exact hj)

/-- The host's matrix product plus the bias repeated along the rows, then the maximum with zero, is `Spec.linRelu`
    with the bias as a row. -/
theorem hostLinRelu_eq (M K N : Nat)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (hz : S_.BroadcastsInDim ⟨2, ![M, N]⟩ (![] : Fin 0 → Fin 2))
    (hc : (⟨1, ![N]⟩ : Shape).ShapeCasts ⟨2, ![1, N]⟩)
    (x : FVec Ideal ⟨2, ![M, K]⟩ .f32) (W : FVec Ideal ⟨2, ![K, N]⟩ .f32) (b : FVec Ideal ⟨1, ![N]⟩ .f32) :
    maximumf
        (addf (Host.dotGeneral (DotDims.plain M K N) none x W)
          (broadcastInDim ⟨2, ![M, N]⟩ ![0, 1] hb2 (broadcastInDim ⟨2, ![1, N]⟩ ![1] hb1 b)))
        (broadcastInDim ⟨2, ![M, N]⟩ ![] hz (constant S_ .f32 0x00000000#32))
      = Cert.Spec.linRelu M K N x W (row hc b) := by
  funext e
  obtain ⟨i, j, rfl⟩ : ∃ (i : Fin M) (j : Fin N), e = ix2 i j := ⟨e 0, e 1, eq_ix2 e⟩
  simp only [Host.dotGeneral]
  rw [Cert.Spec.linRelu_apply, row_apply, maximumf_apply, addf_apply, Cert.Spec.splat_apply, Ideal.ofBits_zero_f32,
    biasRows_apply, Cert.LibDotPlain.dotGeneral_plain]

end Cert.KChain
-- ==== Proof.RefSide.lean ====
/-
  The reference program's value is the chain's.

  The reference computes each layer as the aggregated rows DIVIDED by the nodes' counts plus one (the count laid out
  as a column, one added, the column repeated along the rows), then the host's matrix product with the layer's
  weights plus the bias repeated along the rows, then the maximum with zero. The chain computes it as the aggregated
  rows MULTIPLIED by the nodes' weights 1 / (count + 1), then `Spec.linRelu` with the bias as a row. The first pair
  agrees by the reciprocal law, a count plus one never being zero (`quotient_eq_scaled`); the second pair is one
  function of the same arrays (`hostLinRelu_eq`). The gathers, the scatter-adds and the per-graph mean are the same
  operations of the same operands in both programs. Layer by layer, the reference's stages are therefore the
  chain's functions of the reference's previous stage, and its result is `KChain.result` of its arguments.
-/
import proofs.«146016_j24404004176133_1_alg».proof.Proof.Gen.ReferenceIdeal.Read
import proofs.«146016_j24404004176133_1_alg».proof.Proof.ChainLaws

set_option maxRecDepth 16384

noncomputable section

namespace Cert.RefSide

open Idealize.ShloMosaic
open Cert.ReferenceIdeal.Read

/-- The arguments' types, spelt once. -/
abbrev Feat := FVec Ideal Cert.KernelIdeal.S100000x6 .f32
abbrev EdgeIx := IVec Cert.KernelIdeal.S1600000 32

variable (x0 : Feat) (x1 x2 : EdgeIx) (x3 : IVec Cert.KernelIdeal.S100000 32)
  (x4 : FVec Ideal Cert.KernelIdeal.S6x16 .f32) (x5 : FVec Ideal Cert.KernelIdeal.S16 .f32)
  (x6 : FVec Ideal Cert.KernelIdeal.S16x32 .f32) (x7 : FVec Ideal Cert.KernelIdeal.S32 .f32)
  (x8 : FVec Ideal Cert.KernelIdeal.S32x64 .f32) (x9 : FVec Ideal Cert.KernelIdeal.S64 .f32)
  (x10 : FVec Ideal Cert.KernelIdeal.S64x64 .f32) (x11 : FVec Ideal Cert.KernelIdeal.S64 .f32)

/-! ## The four layers -/

/-- The first layer: the reference's stage is the chain's `h1` of the arguments. -/
theorem layer1 : val_main_v24 (F := Ideal) x0 x1 x2 x4 x5 = Cert.KChain.h1 x0 x1 x2 x4 x5 := by
  have es : val_main_v19 (F := Ideal) x0 x1 x2 = Cert.KChain.scaled6 x0 x1 x2 :=
    Cert.KChain.quotient_eq_scaled Cert.KernelIdeal.scatter_S100000x6_S1600000x1_S1600000x6_1_0_0_1
      Cert.KernelIdeal.gather_S100000x6_S1600000x1_S1600000x6_1_0_n_n_0_1_16 Cert.KernelIdeal.Facts₀.bcast_S_S100000x6
      Cert.KernelIdeal.Facts₀.bcast_S100000x1_S100000x6_0_1 Cert.ReferenceIdeal.Facts₀.bcast_S_S100000x1 x0 x1 x2
  have e := Cert.KChain.hostLinRelu_eq 100000 6 16 Cert.ReferenceIdeal.Facts₀.bcast_S16_S1x16_1
    Cert.ReferenceIdeal.Facts₀.bcast_S1x16_S100000x16_0_1 Cert.ReferenceIdeal.Facts₀.bcast_S_S100000x16
    Cert.KernelIdeal.Facts₀.shapeCasts_S16_S1x16 (val_main_v19 (F := Ideal) x0 x1 x2) x4 x5
  refine e.trans ?_
  rw [es]
  rfl

/-- The second layer: the reference's stage is the chain's `h2` of the reference's first-layer stage. -/
theorem layer2 :
    val_main_v45 (F := Ideal) x0 x1 x2 x4 x5 x6 x7 = Cert.KChain.h2 (val_main_v24 (F := Ideal) x0 x1 x2 x4 x5) x1 x2 x6 x7 := by
  have es : val_main_v40 (F := Ideal) x0 x1 x2 x4 x5 = Cert.KChain.scaled16 (val_main_v24 (F := Ideal) x0 x1 x2 x4 x5) x1 x2 :=
    Cert.KChain.quotient_eq_scaled Cert.KernelIdeal.scatter_S100000x16_S1600000x1_S1600000x16_1_0_0_1
      Cert.KernelIdeal.gather_S100000x16_S1600000x1_S1600000x16_1_0_n_n_0_1_116 Cert.KernelIdeal.Facts₀.bcast_S_S100000x16
      Cert.KernelIdeal.Facts₀.bcast_S100000x1_S100000x16_0_1 Cert.ReferenceIdeal.Facts₀.bcast_S_S100000x1
      (val_main_v24 (F := Ideal) x0 x1 x2 x4 x5) x1 x2
  have e := Cert.KChain.hostLinRelu_eq 100000 16 32 Cert.ReferenceIdeal.Facts₀.bcast_S32_S1x32_1
    Cert.ReferenceIdeal.Facts₀.bcast_S1x32_S100000x32_0_1 Cert.ReferenceIdeal.Facts₀.bcast_S_S100000x32
    Cert.KernelIdeal.Facts₀.shapeCasts_S32_S1x32 (val_main_v40 (F := Ideal) x0 x1 x2 x4 x5) x6 x7
  refine e.trans ?_
  rw [es]
  rfl

/-- The third layer. -/
theorem layer3 :
    val_main_v66 (F := Ideal) x0 x1 x2 x4 x5 x6 x7 x8 x9
      = Cert.KChain.h3 (val_main_v45 (F := Ideal) x0 x1 x2 x4 x5 x6 x7) x1 x2 x8 x9 := by
  have es : val_main_v61 (F := Ideal) x0 x1 x2 x4 x5 x6 x7
      = Cert.KChain.scaled32 (val_main_v45 (F := Ideal) x0 x1 x2 x4 x5 x6 x7) x1 x2 :=
    Cert.KChain.quotient_eq_scaled Cert.KernelIdeal.scatter_S100000x32_S1600000x1_S1600000x32_1_0_0_1
      Cert.KernelIdeal.gather_S100000x32_S1600000x1_S1600000x32_1_0_n_n_0_1_132 Cert.KernelIdeal.Facts₀.bcast_S_S100000x32
      Cert.KernelIdeal.Facts₀.bcast_S100000x1_S100000x32_0_1 Cert.ReferenceIdeal.Facts₀.bcast_S_S100000x1
      (val_main_v45 (F := Ideal) x0 x1 x2 x4 x5 x6 x7) x1 x2
  have e := Cert.KChain.hostLinRelu_eq 100000 32 64 Cert.ReferenceIdeal.Facts₀.bcast_S64_S1x64_1
    Cert.ReferenceIdeal.Facts₀.bcast_S1x64_S100000x64_0_1 Cert.ReferenceIdeal.Facts₀.bcast_S_S100000x64
    Cert.KernelIdeal.Facts₀.shapeCasts_S64_S1x64 (val_main_v61 (F := Ideal) x0 x1 x2 x4 x5 x6 x7) x8 x9
  refine e.trans ?_
  rw [es]
  rfl

/-- The fourth layer. -/
theorem layer4 :
    val_main_v87 (F := Ideal) x0 x1 x2 x4 x5 x6 x7 x8 x9 x10 x11
      = Cert.KChain.h4 (val_main_v66 (F := Ideal) x0 x1 x2 x4 x5 x6 x7 x8 x9) x1 x2 x10 x11 := by
  have es : val_main_v82 (F := Ideal) x0 x1 x2 x4 x5 x6 x7 x8 x9
      = Cert.KChain.scaled64 (val_main_v66 (F := Ideal) x0 x1 x2 x4 x5 x6 x7 x8 x9) x1 x2 :=
    Cert.KChain.quotient_eq_scaled Cert.KernelIdeal.scatter_S100000x64_S1600000x1_S1600000x64_1_0_0_1
      Cert.KernelIdeal.gather_S100000x64_S1600000x1_S1600000x64_1_0_n_n_0_1_164 Cert.KernelIdeal.Facts₀.bcast_S_S100000x64
      Cert.KernelIdeal.Facts₀.bcast_S100000x1_S100000x64_0_1 Cert.ReferenceIdeal.Facts₀.bcast_S_S100000x1
      (val_main_v66 (F := Ideal) x0 x1 x2 x4 x5 x6 x7 x8 x9) x1 x2
  have e := Cert.KChain.hostLinRelu_eq 100000 64 64 Cert.ReferenceIdeal.Facts₀.bcast_S64_S1x64_1
    Cert.ReferenceIdeal.Facts₀.bcast_S1x64_S100000x64_0_1 Cert.ReferenceIdeal.Facts₀.bcast_S_S100000x64
    Cert.KernelIdeal.Facts₀.shapeCasts_S64_S1x64 (val_main_v82 (F := Ideal) x0 x1 x2 x4 x5 x6 x7 x8 x9) x10 x11
  refine e.trans ?_
  rw [es]
  rfl

/-! ## The result -/

/-- The reference's result is the per-graph mean of its fourth-layer stage: the same operations of the same operands. -/
theorem mean_eq :
    val_main_v99 (F := Ideal) x0 x1 x2 x3 x4 x5 x6 x7 x8 x9 x10 x11
      = Cert.KChain.graphMean (val_main_v87 (F := Ideal) x0 x1 x2 x4 x5 x6 x7 x8 x9 x10 x11) x3 := rfl

/-- The reference's result is the chain's value of its arguments. -/
theorem result_eq :
    val_main_v99 (F := Ideal) x0 x1 x2 x3 x4 x5 x6 x7 x8 x9 x10 x11
      = Cert.KChain.result x0 x1 x2 x3 x4 x5 x6 x7 x8 x9 x10 x11 := by
  rw [mean_eq, layer4, layer3, layer2, layer1]
  rfl

end Cert.RefSide

end
-- ==== Proof.lean ====
/-
  Four graph-convolution layers and a per-graph mean, the kernel against its reference, over the extended reals.

  Each layer replaces every node's feature row by (the sum of its in-neighbours' rows plus its own row) weighted by
  1 / (in-degree + 1), then applies a linear map, a bias and the positive part. The kernel program computes the
  weights 1 / (deg + 1) once and MULTIPLIES by them on the host, and leaves the linear map, bias and positive part of
  each layer to a kernel region that works through the nodes in blocks of 5000 rows, rounding its operands to a
  shorter float format first (the identity on the extended reals). The reference DIVIDES by deg + 1 in each layer and
  uses the host's matrix product. The two agree because

    * s · (1 / t) = s / t for every extended real s when t ≠ 0, and t = deg + 1 ≥ 1, deg being a sum of ones
      (no finiteness of the inputs is needed: the law holds at the infinities too);
    * the 20 row blocks of a region tile the 100000 rows, and entry (p, q) of a block is
      max(∑ r, x(p, r) · W(r, q) + b(q), 0), which is the host's product, bias and maximum at that entry;
    * the gathers, scatter-adds and the final per-graph mean are the same operations of the same operands.

  Both programs' results are therefore one function, `KChain.result`, of the argument arrays. The kernel's run is read
  back segment by segment (Fold0 … FoldEnd over the regions' values RegionValue0 … 3); the reference's run is read
  stage by stage (RefSide over the laws of ChainLaws). The three frames are the programs' runs with the results
  dropped, and the idealization rewrote no operation.
-/
import proofs.«146016_j24404004176133_1_alg».proof.Defs
import proofs.«146016_j24404004176133_1_alg».proof.Proof.Gen.Kernel
import proofs.«146016_j24404004176133_1_alg».proof.Proof.Gen.Kernel.Skeleton
import proofs.«146016_j24404004176133_1_alg».proof.Proof.Gen.Kernel.Launch
import proofs.«146016_j24404004176133_1_alg».proof.Proof.Gen.Kernel.Points
import proofs.«146016_j24404004176133_1_alg».proof.Proof.Gen.Kernel.Frame
import proofs.«146016_j24404004176133_1_alg».proof.Proof.Gen.KernelIdeal
import proofs.«146016_j24404004176133_1_alg».proof.Proof.Gen.KernelIdeal.Skeleton
import proofs.«146016_j24404004176133_1_alg».proof.Proof.Gen.KernelIdeal.Launch
import proofs.«146016_j24404004176133_1_alg».proof.Proof.Gen.KernelIdeal.Points
import proofs.«146016_j24404004176133_1_alg».proof.Proof.Gen.KernelIdeal.Frame
import proofs.«146016_j24404004176133_1_alg».proof.Proof.Gen.ReferenceIdeal
import proofs.«146016_j24404004176133_1_alg».proof.Proof.Gen.ReferenceIdeal.Run
import proofs.«146016_j24404004176133_1_alg».proof.Proof.Gen.ReferenceIdeal.Read
import proofs.«146016_j24404004176133_1_alg».proof.Proof.Gen.Pre_finite_inputs
import proofs.«146016_j24404004176133_1_alg».proof.Proof.KernelResultRun
import proofs.«146016_j24404004176133_1_alg».proof.Proof.FoldEnd
import proofs.«146016_j24404004176133_1_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the chain's value of the arguments. -/
theorem algebraic : Cert.algebraic_KernelIdeal_ReferenceIdeal := by
  intro m ρ m' ρ' _ hagree
  refine ⟨fun c => Cert.KChain.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.result_eq m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v99_eq, Cert.RefSide.result_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
